-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x16 : Shape := ⟨2, ![2000, 16]⟩
abbrev S50000x6 : Shape := ⟨2, ![50000, 6]⟩
abbrev S2000x50000 : Shape := ⟨2, ![2000, 50000]⟩
abbrev S222x6 : Shape := ⟨2, ![222, 6]⟩
abbrev S27x6 : Shape := ⟨2, ![27, 6]⟩
abbrev S373x6 : Shape := ⟨2, ![373, 6]⟩
abbrev S283x6 : Shape := ⟨2, ![283, 6]⟩
abbrev S26x6 : Shape := ⟨2, ![26, 6]⟩
abbrev S7x6 : Shape := ⟨2, ![7, 6]⟩
abbrev S_ : Shape := ⟨0, ![]⟩

class Facts : Prop where
  bcast_S_S2000x16 : S_.BroadcastsInDim S2000x16 (![] : Fin 0 → Fin S2000x16.rank)
  reducesTo_S2000x16_S_d0_1 : S2000x16.ReducesTo [0, 1] S_
  h_S_ : 0 < S_.numel
  bcast_S_S222x6 : S_.BroadcastsInDim S222x6 (![] : Fin 0 → Fin S222x6.rank)
  reducesTo_S222x6_S_d0_1 : S222x6.ReducesTo [0, 1] S_
  bcast_S_S27x6 : S_.BroadcastsInDim S27x6 (![] : Fin 0 → Fin S27x6.rank)
  reducesTo_S27x6_S_d0_1 : S27x6.ReducesTo [0, 1] S_
  bcast_S_S373x6 : S_.BroadcastsInDim S373x6 (![] : Fin 0 → Fin S373x6.rank)
  reducesTo_S373x6_S_d0_1 : S373x6.ReducesTo [0, 1] S_
  bcast_S_S283x6 : S_.BroadcastsInDim S283x6 (![] : Fin 0 → Fin S283x6.rank)
  reducesTo_S283x6_S_d0_1 : S283x6.ReducesTo [0, 1] S_
  bcast_S_S26x6 : S_.BroadcastsInDim S26x6 (![] : Fin 0 → Fin S26x6.rank)
  reducesTo_S26x6_S_d0_1 : S26x6.ReducesTo [0, 1] S_
  bcast_S_S7x6 : S_.BroadcastsInDim S7x6 (![] : Fin 0 → Fin S7x6.rank)
  reducesTo_S7x6_S_d0_1 : S7x6.ReducesTo [0, 1] S_

variable [Facts]

def fn_part1 {F : FTy → Type} [FloatOps F] (main_arg6 : FVec F S283x6 .f32) (main_arg7 : FVec F S26x6 .f32) (main_arg8 : FVec F S7x6 .f32) (main_v13 : IVec S_ 1) (main_v16 : IVec S373x6 1) : IVec S_ 1 :=
  let main_c_5 : IVec S_ 1 := constantI S_ 1 1#1
  let main_v17 : IVec S_ 1 := (fun x v => Host.reduce IntOp.andi x v reducesTo_S373x6_S_d0_1 h_S_) main_v16 main_c_5
  let main_v18 : IVec S_ 1 := andi main_v13 main_v17
  let main_v19 : FVec F S283x6 .f32 := Host.absf main_arg6
  let main_cst_6 : FVec F S_ .f32 := constant S_ .f32 0x7F800000#32
  let main_v20 : FVec F S283x6 .f32 := broadcastInDim S283x6 ![] bcast_S_S283x6 main_cst_6
  let main_v21 : IVec S283x6 1 := cmpf .olt main_v19 main_v20
  let main_c_7 : IVec S_ 1 := constantI S_ 1 1#1
  let main_v22 : IVec S_ 1 := (fun x v => Host.reduce IntOp.andi x v reducesTo_S283x6_S_d0_1 h_S_) main_v21 main_c_7
  let main_v23 : IVec S_ 1 := andi main_v18 main_v22
  let main_v24 : FVec F S26x6 .f32 := Host.absf main_arg7
  let main_cst_8 : FVec F S_ .f32 := constant S_ .f32 0x7F800000#32
  let main_v25 : FVec F S26x6 .f32 := broadcastInDim S26x6 ![] bcast_S_S26x6 main_cst_8
  let main_v26 : IVec S26x6 1 := cmpf .olt main_v24 main_v25
  let main_c_9 : IVec S_ 1 := constantI S_ 1 1#1
  let main_v27 : IVec S_ 1 := (fun x v => Host.reduce IntOp.andi x v reducesTo_S26x6_S_d0_1 h_S_) main_v26 main_c_9
  let main_v28 : IVec S_ 1 := andi main_v23 main_v27
  let main_v29 : FVec F S7x6 .f32 := Host.absf main_arg8
  let main_cst_10 : FVec F S_ .f32 := constant S_ .f32 0x7F800000#32
  let main_v30 : FVec F S7x6 .f32 := broadcastInDim S7x6 ![] bcast_S_S7x6 main_cst_10
  let main_v31 : IVec S7x6 1 := cmpf .olt main_v29 main_v30
  let main_c_11 : IVec S_ 1 := constantI S_ 1 1#1
  let main_v32 : IVec S_ 1 := (fun x v => Host.reduce IntOp.andi x v reducesTo_S7x6_S_d0_1 h_S_) main_v31 main_c_11
  let main_v33 : IVec S_ 1 := andi main_v28 main_v32
  main_v33

def fn {F : FTy → Type} [FloatOps F] (main_arg0 : FVec F S2000x16 .f32) (main_arg1 : IVec S50000x6 32) (main_arg2 : IVec S2000x50000 32) (main_arg3 : FVec F S222x6 .f32) (main_arg4 : FVec F S27x6 .f32) (main_arg5 : FVec F S373x6 .f32) (main_arg6 : FVec F S283x6 .f32) (main_arg7 : FVec F S26x6 .f32) (main_arg8 : FVec F S7x6 .f32) : IVec S_ 1 :=
  let main_v0 : FVec F S2000x16 .f32 := Host.absf main_arg0
  let main_cst : FVec F S_ .f32 := constant S_ .f32 0x7F800000#32
  let main_v1 : FVec F S2000x16 .f32 := broadcastInDim S2000x16 ![] bcast_S_S2000x16 main_cst
  let main_v2 : IVec S2000x16 1 := cmpf .olt main_v0 main_v1
  let main_c : IVec S_ 1 := constantI S_ 1 1#1
  let main_v3 : IVec S_ 1 := (fun x v => Host.reduce IntOp.andi x v reducesTo_S2000x16_S_d0_1 h_S_) main_v2 main_c
  let main_v4 : FVec F S222x6 .f32 := Host.absf main_arg3
  let main_cst_0 : FVec F S_ .f32 := constant S_ .f32 0x7F800000#32
  let main_v5 : FVec F S222x6 .f32 := broadcastInDim S222x6 ![] bcast_S_S222x6 main_cst_0
  let main_v6 : IVec S222x6 1 := cmpf .olt main_v4 main_v5
  let main_c_1 : IVec S_ 1 := constantI S_ 1 1#1
  let main_v7 : IVec S_ 1 := (fun x v => Host.reduce IntOp.andi x v reducesTo_S222x6_S_d0_1 h_S_) main_v6 main_c_1
  let main_v8 : IVec S_ 1 := andi main_v3 main_v7
  let main_v9 : FVec F S27x6 .f32 := Host.absf main_arg4
  let main_cst_2 : FVec F S_ .f32 := constant S_ .f32 0x7F800000#32
  let main_v10 : FVec F S27x6 .f32 := broadcastInDim S27x6 ![] bcast_S_S27x6 main_cst_2
  let main_v11 : IVec S27x6 1 := cmpf .olt main_v9 main_v10
  let main_c_3 : IVec S_ 1 := constantI S_ 1 1#1
  let main_v12 : IVec S_ 1 := (fun x v => Host.reduce IntOp.andi x v reducesTo_S27x6_S_d0_1 h_S_) main_v11 main_c_3
  let main_v13 : IVec S_ 1 := andi main_v8 main_v12
  let main_v14 : FVec F S373x6 .f32 := Host.absf main_arg5
  let main_cst_4 : FVec F S_ .f32 := constant S_ .f32 0x7F800000#32
  let main_v15 : FVec F S373x6 .f32 := broadcastInDim S373x6 ![] bcast_S_S373x6 main_cst_4
  let main_v16 : IVec S373x6 1 := cmpf .olt main_v14 main_v15
  fn_part1 (F := F) main_arg6 main_arg7 main_arg8 main_v13 main_v16
-- ==== Kernel.lean ====
abbrev S2000x16 : Shape := ⟨2, ![2000, 16]⟩
abbrev S50000x6 : Shape := ⟨2, ![50000, 6]⟩
abbrev S2000x50000 : Shape := ⟨2, ![2000, 50000]⟩
abbrev S222x6 : Shape := ⟨2, ![222, 6]⟩
abbrev S27x6 : Shape := ⟨2, ![27, 6]⟩
abbrev S373x6 : Shape := ⟨2, ![373, 6]⟩
abbrev S283x6 : Shape := ⟨2, ![283, 6]⟩
abbrev S26x6 : Shape := ⟨2, ![26, 6]⟩
abbrev S7x6 : Shape := ⟨2, ![7, 6]⟩
abbrev S50000x1 : Shape := ⟨2, ![50000, 1]⟩
abbrev S50000 : Shape := ⟨1, ![50000]⟩
abbrev S_ : Shape := ⟨0, ![]⟩
abbrev S50000x36 : Shape := ⟨2, ![50000, 36]⟩
abbrev S2000x50176 : Shape := ⟨2, ![2000, 50176]⟩
abbrev S50176x36 : Shape := ⟨2, ![50176, 36]⟩
abbrev S2000x36 : Shape := ⟨2, ![2000, 36]⟩
abbrev S2000x1 : Shape := ⟨2, ![2000, 1]⟩
abbrev S1000x1024 : Shape := ⟨2, ![1000, 1024]⟩
abbrev S1024x36 : Shape := ⟨2, ![1024, 36]⟩
abbrev S1000x36 : Shape := ⟨2, ![1000, 36]⟩
abbrev S1000x1 : Shape := ⟨2, ![1000, 1]⟩
abbrev S1000 : Shape := ⟨1, ![1000]⟩
abbrev S2000x52 : Shape := ⟨2, ![2000, 52]⟩

abbrev nBuf : Space → Nat
  | .hbm => 87
  | .vmem => 8
  | .smem => 0
  | _ => 0

abbrev bufTy : (tb : Table) → Fin (tcTables nBuf tb) → BufTy
  | .hbm, ⟨0, _⟩ => ⟨S2000x16, .f32⟩
  | .hbm, ⟨1, _⟩ => ⟨S50000x6, .i32⟩
  | .hbm, ⟨2, _⟩ => ⟨S2000x50000, .i32⟩
  | .hbm, ⟨3, _⟩ => ⟨S222x6, .f32⟩
  | .hbm, ⟨4, _⟩ => ⟨S27x6, .f32⟩
  | .hbm, ⟨5, _⟩ => ⟨S373x6, .f32⟩
  | .hbm, ⟨6, _⟩ => ⟨S283x6, .f32⟩
  | .hbm, ⟨7, _⟩ => ⟨S26x6, .f32⟩
  | .hbm, ⟨8, _⟩ => ⟨S7x6, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x6, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x6, .f32⟩
  | .hbm, ⟨31, _⟩ => ⟨S50000x1, .i32⟩
  | .hbm, ⟨32, _⟩ => ⟨S50000, .i32⟩
  | .hbm, ⟨33, _⟩ => ⟨S_, .i32⟩
  | .hbm, ⟨34, _⟩ => ⟨S50000, .i32⟩
  | .hbm, ⟨35, _⟩ => ⟨S50000, .i1⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S50000, .i32⟩
  | .hbm, ⟨40, _⟩ => ⟨S50000x1, .i32⟩
  | .hbm, ⟨41, _⟩ => ⟨S50000x6, .f32⟩
  | .hbm, ⟨42, _⟩ => ⟨S50000x1, .i32⟩
  | .hbm, ⟨43, _⟩ => ⟨S50000, .i32⟩
  | .hbm, ⟨44, _⟩ => ⟨S_, .i32⟩
  | .hbm, ⟨45, _⟩ => ⟨S50000, .i32⟩
  | .hbm, ⟨46, _⟩ => ⟨S50000, .i1⟩
  | .hbm, ⟨47, _⟩ => ⟨S_, .i32⟩
  | .hbm, ⟨48, _⟩ => ⟨S50000, .i32⟩
  | .hbm, ⟨49, _⟩ => ⟨S50000, .i32⟩
  | .hbm, ⟨50, _⟩ => ⟨S50000, .i32⟩
  | .hbm, ⟨51, _⟩ => ⟨S50000x1, .i32⟩
  | .hbm, ⟨52, _⟩ => ⟨S50000x6, .f32⟩
  | .hbm, ⟨53, _⟩ => ⟨S50000x1, .i32⟩
  | .hbm, ⟨54, _⟩ => ⟨S50000, .i32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S50000x6, .f32⟩
  | .hbm, ⟨64, _⟩ => ⟨S50000x1, .i32⟩
  | .hbm, ⟨65, _⟩ => ⟨S50000, .i32⟩
  | .hbm, ⟨66, _⟩ => ⟨S_, .i32⟩
  | .hbm, ⟨67, _⟩ => ⟨S50000, .i32⟩
  | .hbm, ⟨68, _⟩ => ⟨S50000, .i1⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S50000, .i32⟩
  | .hbm, ⟨73, _⟩ => ⟨S50000x1, .i32⟩
  | .hbm, ⟨74, _⟩ => ⟨S50000x6, .f32⟩
  | .hbm, ⟨75, _⟩ => ⟨S50000x36, .f32⟩
  | .hbm, ⟨76, _⟩ => ⟨S_, .i32⟩
  | .hbm, ⟨77, _⟩ => ⟨S_, .i32⟩
  | .hbm, ⟨78, _⟩ => ⟨S2000x50176, .i32⟩
  | .hbm, ⟨79, _⟩ => ⟨S_, .f32⟩
  | .hbm, ⟨80, _⟩ => ⟨S_, .f32⟩
  | .hbm, ⟨81, _⟩ => ⟨S50176x36, .f32⟩
  | .hbm, ⟨82, _⟩ => ⟨S2000x36, .f32⟩
  | .hbm, ⟨83, _⟩ => ⟨S2000x1, .f32⟩
  | .hbm, ⟨84, _⟩ => ⟨S2000x36, .f32⟩
  | .hbm, ⟨85, _⟩ => ⟨S2000x36, .f32⟩
  | .hbm, ⟨86, _⟩ => ⟨S2000x52, .f32⟩
  | .local _ .vmem, ⟨0, _⟩ => ⟨S1000x1024, .i32⟩
  | .local _ .vmem, ⟨1, _⟩ => ⟨S1000x1024, .i32⟩
  | .local _ .vmem, ⟨2, _⟩ => ⟨S1024x36, .f32⟩
  | .local _ .vmem, ⟨3, _⟩ => ⟨S1024x36, .f32⟩
  | .local _ .vmem, ⟨4, _⟩ => ⟨S1000x36, .f32⟩
  | .local _ .vmem, ⟨5, _⟩ => ⟨S1000x36, .f32⟩
  | .local _ .vmem, ⟨6, _⟩ => ⟨S1000x1, .f32⟩
  | .local _ .vmem, ⟨7, _⟩ => ⟨S1000x1, .f32⟩
  | _, _ => ⟨S2000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_call0_v0 : Ref sig .tc := ⟨.hbm, 77, rfl⟩
abbrev main_v55 : Ref sig .tc := ⟨.hbm, 78, rfl⟩
abbrev main_cst : Ref sig .tc := ⟨.hbm, 79, rfl⟩
abbrev main_call1_v0 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x36 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S50000x6_S50000x1_0_0 : S50000x6.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x6_S50000x1_0_1 : S50000x6.Slices ![0, 1] S50000x1
  slices_S50000x6_S50000x1_0_2 : S50000x6.Slices ![0, 2] S50000x1
  slices_S50000x6_S50000x1_0_3 : S50000x6.Slices ![0, 3] S50000x1
  slices_S50000x6_S50000x1_0_4 : S50000x6.Slices ![0, 4] S50000x1
  slices_S50000x6_S50000x1_0_5 : S50000x6.Slices ![0, 5] S50000x1
  concatenates_S50000x6_S50000x6_S50000x6_S50000x6_S50000x6_S50000x6_S50000x36_d1 : Shape.Concatenates [S50000x6, S50000x6, S50000x6, S50000x6, S50000x6, S50000x6] S50000x36 1
  pads_S2000x50000_S2000x50176_000_01760 : S2000x50000.Pads (![0, 0] : Fin 2 → Nat) ![0, 176] ![0, 0] S2000x50176
  h_S_ : 0 < S_.numel
  pads_S50000x36_S50176x36_01760_000 : S50000x36.Pads (![0, 0] : Fin 2 → Nat) ![176, 0] ![0, 0] S50176x36
  inb_S1000x36_S1000x36_0_0 : ∀ a, (![0, 0] : Fin 2 → Nat) a + S1000x36.size a ≤ S1000x36.size a
  h_S1000x36 : 0 < S1000x36.numel
  inb_S1000x1_S1000x1_0_0 : ∀ a, (![0, 0] : Fin 2 → Nat) a + S1000x1.size a ≤ S1000x1.size a
  h_S1000x1 : 0 < S1000x1.numel
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  natLt_1_32 : 1 < 32
  bitsLt_bf16_f32 : FTy.bits .bf16 < FTy.bits .f32
  inb_S1024x36_S1024x36_0_0 : ∀ a, (![0, 0] : Fin 2 → Nat) a + S1024x36.size a ≤ S1024x36.size a
  h_S1024x36 : 0 < S1024x36.numel
  shapeCasts_S1024x36_S1024x36 : S1024x36.ShapeCasts S1024x36
  shapeCasts_S1000x36_S1000x36 : S1000x36.ShapeCasts S1000x36
  shapeCasts_S1000x1_S1000x1 : S1000x1.ShapeCasts S1000x1
  reduces_S1000x1024_S1000 : S1000x1024.Reduces [1] S1000
  shapeCasts_S1000_S1000x1 : S1000.ShapeCasts S1000x1
  bcast_S2000x1_S2000x36_0_1 : S2000x1.BroadcastsInDim S2000x36 (![0, 1] : Fin 2 → Fin S2000x36.rank)
  concatenates_S2000x16_S2000x36_S2000x52_d1 : Shape.Concatenates [S2000x16, S2000x36] S2000x52 1
  gather_S222x6_S50000x1_S50000x6_1_0_n_n_0_1_16_wf : GatherDims.WF S222x6 S50000x1 S50000x6 [1] [0] [] [0] [] 1 ![1, 6]
  gather_S27x6_S50000x1_S50000x6_1_0_n_n_0_1_16_wf : GatherDims.WF S27x6 S50000x1 S50000x6 [1] [0] [] [0] [] 1 ![1, 6]
  gather_S373x6_S50000x1_S50000x6_1_0_n_n_0_1_16_wf : GatherDims.WF S373x6 S50000x1 S50000x6 [1] [0] [] [0] [] 1 ![1, 6]
  gather_S283x6_S50000x1_S50000x6_1_0_n_n_0_1_16_wf : GatherDims.WF S283x6 S50000x1 S50000x6 [1] [0] [] [0] [] 1 ![1, 6]
  gather_S26x6_S50000x1_S50000x6_1_0_n_n_0_1_16_wf : GatherDims.WF S26x6 S50000x1 S50000x6 [1] [0] [] [0] [] 1 ![1, 6]
  gather_S7x6_S50000x1_S50000x6_1_0_n_n_0_1_16_wf : GatherDims.WF S7x6 S50000x1 S50000x6 [1] [0] [] [0] [] 1 ![1, 6]
  dot_S1000x1024_S1024x36_S1000x36_1_0_0_1_n_n_wf : DotDims.WF S1000x1024 S1024x36 S1000x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S2000x50176.size a
  hwx0_0 : ∀ i : grid0.Coords, EltTy.bits .i32 = 32 ∨ (Rect.block (s := S2000x50176) S1000x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x36.size a ≤ S50176x36.size a
  hwx0_1 : ∀ i : grid0.Coords, EltTy.bits .f32 = 32 ∨ (Rect.block (s := S50176x36) S1024x36.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x36.size a ≤ S2000x36.size a
  hwx0_2 : ∀ i : grid0.Coords, EltTy.bits .f32 = 32 ∨ (Rect.block (s := S2000x36) S1000x36.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S2000x1.size a
  hwx0_3 : ∀ i : grid0.Coords, EltTy.bits .f32 = 32 ∨ (Rect.block (s := S2000x1) S1000x1.size (cc0_transform_3 i) (hinb0_3 i)).WholeWords (EltTy.packing .f32)

variable [Facts₀]

def gather_S222x6_S50000x1_S50000x6_1_0_n_n_0_1_16 : GatherDims S222x6 S50000x1 S50000x6 where
  offsetDims := [1]
  collapsedSliceDims := [0]
  operandBatchingDims := []
  startIndicesBatchingDims := []
  startIndexMap := [0]
  indexVectorDim := 1
  sliceSizes := ![1, 6]
  wf := gather_S222x6_S50000x1_S50000x6_1_0_n_n_0_1_16_wf
def gather_S27x6_S50000x1_S50000x6_1_0_n_n_0_1_16 : GatherDims S27x6 S50000x1 S50000x6 where
  offsetDims := [1]
  collapsedSliceDims := [0]
  operandBatchingDims := []
  startIndicesBatchingDims := []
  startIndexMap := [0]
  indexVectorDim := 1
  sliceSizes := ![1, 6]
  wf := gather_S27x6_S50000x1_S50000x6_1_0_n_n_0_1_16_wf
def gather_S373x6_S50000x1_S50000x6_1_0_n_n_0_1_16 : GatherDims S373x6 S50000x1 S50000x6 where
  offsetDims := [1]
  collapsedSliceDims := [0]
  operandBatchingDims := []
  startIndicesBatchingDims := []
  startIndexMap := [0]
  indexVectorDim := 1
  sliceSizes := ![1, 6]
  wf := gather_S373x6_S50000x1_S50000x6_1_0_n_n_0_1_16_wf
def gather_S283x6_S50000x1_S50000x6_1_0_n_n_0_1_16 : GatherDims S283x6 S50000x1 S50000x6 where
  offsetDims := [1]
  collapsedSliceDims := [0]
  operandBatchingDims := []
  startIndicesBatchingDims := []
  startIndexMap := [0]
  indexVectorDim := 1
  sliceSizes := ![1, 6]
  wf := gather_S283x6_S50000x1_S50000x6_1_0_n_n_0_1_16_wf
def gather_S26x6_S50000x1_S50000x6_1_0_n_n_0_1_16 : GatherDims S26x6 S50000x1 S50000x6 where
  offsetDims := [1]
  collapsedSliceDims := [0]
  operandBatchingDims := []
  startIndicesBatchingDims := []
  startIndexMap := [0]
  indexVectorDim := 1
  sliceSizes := ![1, 6]
  wf := gather_S26x6_S50000x1_S50000x6_1_0_n_n_0_1_16_wf
def gather_S7x6_S50000x1_S50000x6_1_0_n_n_0_1_16 : GatherDims S7x6 S50000x1 S50000x6 where
  offsetDims := [1]
  collapsedSliceDims := [0]
  operandBatchingDims := []
  startIndicesBatchingDims := []
  startIndexMap := [0]
  indexVectorDim := 1
  sliceSizes := ![1, 6]
  wf := gather_S7x6_S50000x1_S50000x6_1_0_n_n_0_1_16_wf
def dot_S1000x1024_S1024x36_S1000x36_1_0_0_1_n_n : DotDims S1000x1024 S1024x36 S1000x36 where
  lhsContracting := [1]
  rhsContracting := [0]
  lhsNonContracting := [0]
  rhsNonContracting := [1]
  lhsBatch := []
  rhsBatch := []
  wf := dot_S1000x1024_S1024x36_S1000x36_1_0_0_1_n_n_wf

abbrev win0_0 : Pipeline.Window sig grid0 :=
  Pipeline.Window.ofSpec (Memref.whole main_v55) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1024x36.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57_0) S1000x36.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57_1) S1000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000x16 : Shape := ⟨2, ![2000, 16]⟩
abbrev S50000x6 : Shape := ⟨2, ![50000, 6]⟩
abbrev S2000x50000 : Shape := ⟨2, ![2000, 50000]⟩
abbrev S222x6 : Shape := ⟨2, ![222, 6]⟩
abbrev S27x6 : Shape := ⟨2, ![27, 6]⟩
abbrev S373x6 : Shape := ⟨2, ![373, 6]⟩
abbrev S283x6 : Shape := ⟨2, ![283, 6]⟩
abbrev S26x6 : Shape := ⟨2, ![26, 6]⟩
abbrev S7x6 : Shape := ⟨2, ![7, 6]⟩
abbrev S50000x1 : Shape := ⟨2, ![50000, 1]⟩
abbrev S50000 : Shape := ⟨1, ![50000]⟩
abbrev S_ : Shape := ⟨0, ![]⟩
abbrev S50000x36 : Shape := ⟨2, ![50000, 36]⟩
abbrev S2000 : Shape := ⟨1, ![2000]⟩
abbrev S2000x1 : Shape := ⟨2, ![2000, 1]⟩
abbrev S2000x36 : Shape := ⟨2, ![2000, 36]⟩
abbrev S2000x52 : Shape := ⟨2, ![2000, 52]⟩

abbrev nBuf : Space → Nat
  | .hbm => 87
  | .vmem => 0
  | .smem => 0
  | _ => 0

abbrev bufTy : (tb : Table) → Fin (tcTables nBuf tb) → BufTy
  | .hbm, ⟨0, _⟩ => ⟨S2000x16, .f32⟩
  | .hbm, ⟨1, _⟩ => ⟨S50000x6, .i32⟩
  | .hbm, ⟨2, _⟩ => ⟨S2000x50000, .i32⟩
  | .hbm, ⟨3, _⟩ => ⟨S222x6, .f32⟩
  | .hbm, ⟨4, _⟩ => ⟨S27x6, .f32⟩
  | .hbm, ⟨5, _⟩ => ⟨S373x6, .f32⟩
  | .hbm, ⟨6, _⟩ => ⟨S283x6, .f32⟩
  | .hbm, ⟨7, _⟩ => ⟨S26x6, .f32⟩
  | .hbm, ⟨8, _⟩ => ⟨S7x6, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x6, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x6, .f32⟩
  | .hbm, ⟨31, _⟩ => ⟨S50000x1, .i32⟩
  | .hbm, ⟨32, _⟩ => ⟨S50000, .i32⟩
  | .hbm, ⟨33, _⟩ => ⟨S_, .i32⟩
  | .hbm, ⟨34, _⟩ => ⟨S50000, .i32⟩
  | .hbm, ⟨35, _⟩ => ⟨S50000, .i1⟩
  | .hbm, ⟨36, _⟩ => ⟨S_, .i32⟩
  | .hbm, ⟨37, _⟩ => ⟨S50000, .i32⟩
  | .hbm, ⟨38, _⟩ => ⟨S50000, .i32⟩
  | .hbm, ⟨39, _⟩ => ⟨S50000, .i32⟩
  | .hbm, ⟨40, _⟩ => ⟨S50000x1, .i32⟩
  | .hbm, ⟨41, _⟩ => ⟨S50000x6, .f32⟩
  | .hbm, ⟨42, _⟩ => ⟨S50000x1, .i32⟩
  | .hbm, ⟨43, _⟩ => ⟨S50000, .i32⟩
  | .hbm, ⟨44, _⟩ => ⟨S_, .i32⟩
  | .hbm, ⟨45, _⟩ => ⟨S50000, .i32⟩
  | .hbm, ⟨46, _⟩ => ⟨S50000, .i1⟩
  | .hbm, ⟨47, _⟩ => ⟨S_, .i32⟩
  | .hbm, ⟨48, _⟩ => ⟨S50000, .i32⟩
  | .hbm, ⟨49, _⟩ => ⟨S50000, .i32⟩
  | .hbm, ⟨50, _⟩ => ⟨S50000, .i32⟩
  | .hbm, ⟨51, _⟩ => ⟨S50000x1, .i32⟩
  | .hbm, ⟨52, _⟩ => ⟨S50000x6, .f32⟩
  | .hbm, ⟨53, _⟩ => ⟨S50000x1, .i32⟩
  | .hbm, ⟨54, _⟩ => ⟨S50000, .i32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S50000x6, .f32⟩
  | .hbm, ⟨64, _⟩ => ⟨S50000x1, .i32⟩
  | .hbm, ⟨65, _⟩ => ⟨S50000, .i32⟩
  | .hbm, ⟨66, _⟩ => ⟨S_, .i32⟩
  | .hbm, ⟨67, _⟩ => ⟨S50000, .i32⟩
  | .hbm, ⟨68, _⟩ => ⟨S50000, .i1⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S50000, .i32⟩
  | .hbm, ⟨73, _⟩ => ⟨S50000x1, .i32⟩
  | .hbm, ⟨74, _⟩ => ⟨S50000x6, .f32⟩
  | .hbm, ⟨75, _⟩ => ⟨S50000x36, .f32⟩
  | .hbm, ⟨76, _⟩ => ⟨S_, .i32⟩
  | .hbm, ⟨77, _⟩ => ⟨S2000x50000, .i32⟩
  | .hbm, ⟨78, _⟩ => ⟨S2000x50000, .i1⟩
  | .hbm, ⟨79, _⟩ => ⟨S2000x50000, .f32⟩
  | .hbm, ⟨80, _⟩ => ⟨S_, .f32⟩
  | .hbm, ⟨81, _⟩ => ⟨S2000, .f32⟩
  | .hbm, ⟨82, _⟩ => ⟨S2000x1, .f32⟩
  | .hbm, ⟨83, _⟩ => ⟨S2000x36, .f32⟩
  | .hbm, ⟨84, _⟩ => ⟨S2000x36, .f32⟩
  | .hbm, ⟨85, _⟩ => ⟨S2000x36, .f32⟩
  | .hbm, ⟨86, _⟩ => ⟨S2000x52, .f32⟩
  | _, _ => ⟨S2000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  slices_S50000x6_S50000x1_0_0 : S50000x6.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x6_S50000x1_0_1 : S50000x6.Slices ![0, 1] S50000x1
  slices_S50000x6_S50000x1_0_2 : S50000x6.Slices ![0, 2] S50000x1
  slices_S50000x6_S50000x1_0_3 : S50000x6.Slices ![0, 3] S50000x1
  slices_S50000x6_S50000x1_0_4 : S50000x6.Slices ![0, 4] S50000x1
  slices_S50000x6_S50000x1_0_5 : S50000x6.Slices ![0, 5] S50000x1
  concatenates_S50000x6_S50000x6_S50000x6_S50000x6_S50000x6_S50000x6_S50000x36_d1 : Shape.Concatenates [S50000x6, S50000x6, S50000x6, S50000x6, S50000x6, S50000x6] S50000x36 1
  bcast_S_S2000x50000 : S_.BroadcastsInDim S2000x50000 (![] : Fin 0 → Fin S2000x50000.rank)
  reducesTo_S2000x50000_S2000_d1 : S2000x50000.ReducesTo [1] S2000
  h_S_ : 0 < S_.numel
  bcast_S2000_S2000x1_0 : S2000.BroadcastsInDim S2000x1 (![0] : Fin 1 → Fin S2000x1.rank)
  bcast_S2000x1_S2000x36_0_1 : S2000x1.BroadcastsInDim S2000x36 (![0, 1] : Fin 2 → Fin S2000x36.rank)
  concatenates_S2000x16_S2000x36_S2000x52_d1 : Shape.Concatenates [S2000x16, S2000x36] S2000x52 1
  gather_S222x6_S50000x1_S50000x6_1_0_n_n_0_1_16_wf : GatherDims.WF S222x6 S50000x1 S50000x6 [1] [0] [] [0] [] 1 ![1, 6]
  gather_S27x6_S50000x1_S50000x6_1_0_n_n_0_1_16_wf : GatherDims.WF S27x6 S50000x1 S50000x6 [1] [0] [] [0] [] 1 ![1, 6]
  gather_S373x6_S50000x1_S50000x6_1_0_n_n_0_1_16_wf : GatherDims.WF S373x6 S50000x1 S50000x6 [1] [0] [] [0] [] 1 ![1, 6]
  gather_S283x6_S50000x1_S50000x6_1_0_n_n_0_1_16_wf : GatherDims.WF S283x6 S50000x1 S50000x6 [1] [0] [] [0] [] 1 ![1, 6]
  gather_S26x6_S50000x1_S50000x6_1_0_n_n_0_1_16_wf : GatherDims.WF S26x6 S50000x1 S50000x6 [1] [0] [] [0] [] 1 ![1, 6]
  gather_S7x6_S50000x1_S50000x6_1_0_n_n_0_1_16_wf : GatherDims.WF S7x6 S50000x1 S50000x6 [1] [0] [] [0] [] 1 ![1, 6]
  dot_S2000x50000_S50000x36_S2000x36_1_0_0_1_n_n_wf : DotDims.WF S2000x50000 S50000x36 S2000x36 [1] [0] [0] [1] [] []

variable [Facts₀]

def gather_S222x6_S50000x1_S50000x6_1_0_n_n_0_1_16 : GatherDims S222x6 S50000x1 S50000x6 where
  offsetDims := [1]
  collapsedSliceDims := [0]
  operandBatchingDims := []
  startIndicesBatchingDims := []
  startIndexMap := [0]
  indexVectorDim := 1
  sliceSizes := ![1, 6]
  wf := gather_S222x6_S50000x1_S50000x6_1_0_n_n_0_1_16_wf
def gather_S27x6_S50000x1_S50000x6_1_0_n_n_0_1_16 : GatherDims S27x6 S50000x1 S50000x6 where
  offsetDims := [1]
  collapsedSliceDims := [0]
  operandBatchingDims := []
  startIndicesBatchingDims := []
  startIndexMap := [0]
  indexVectorDim := 1
  sliceSizes := ![1, 6]
  wf := gather_S27x6_S50000x1_S50000x6_1_0_n_n_0_1_16_wf
def gather_S373x6_S50000x1_S50000x6_1_0_n_n_0_1_16 : GatherDims S373x6 S50000x1 S50000x6 where
  offsetDims := [1]
  collapsedSliceDims := [0]
  operandBatchingDims := []
  startIndicesBatchingDims := []
  startIndexMap := [0]
  indexVectorDim := 1
  sliceSizes := ![1, 6]
  wf := gather_S373x6_S50000x1_S50000x6_1_0_n_n_0_1_16_wf
def gather_S283x6_S50000x1_S50000x6_1_0_n_n_0_1_16 : GatherDims S283x6 S50000x1 S50000x6 where
  offsetDims := [1]
  collapsedSliceDims := [0]
  operandBatchingDims := []
  startIndicesBatchingDims := []
  startIndexMap := [0]
  indexVectorDim := 1
  sliceSizes := ![1, 6]
  wf := gather_S283x6_S50000x1_S50000x6_1_0_n_n_0_1_16_wf
def gather_S26x6_S50000x1_S50000x6_1_0_n_n_0_1_16 : GatherDims S26x6 S50000x1 S50000x6 where
  offsetDims := [1]
  collapsedSliceDims := [0]
  operandBatchingDims := []
  startIndicesBatchingDims := []
  startIndexMap := [0]
  indexVectorDim := 1
  sliceSizes := ![1, 6]
  wf := gather_S26x6_S50000x1_S50000x6_1_0_n_n_0_1_16_wf
def gather_S7x6_S50000x1_S50000x6_1_0_n_n_0_1_16 : GatherDims S7x6 S50000x1 S50000x6 where
  offsetDims := [1]
  collapsedSliceDims := [0]
  operandBatchingDims := []
  startIndicesBatchingDims := []
  startIndexMap := [0]
  indexVectorDim := 1
  sliceSizes := ![1, 6]
  wf := gather_S7x6_S50000x1_S50000x6_1_0_n_n_0_1_16_wf
def dot_S2000x50000_S50000x36_S2000x36_1_0_0_1_n_n : DotDims S2000x50000 S50000x36 S2000x36 where
  lhsContracting := [1]
  rhsContracting := [0]
  lhsNonContracting := [0]
  rhsNonContracting := [1]
  lhsBatch := []
  rhsBatch := []
  wf := dot_S2000x50000_S50000x36_S2000x36_1_0_0_1_n_n_wf

class Facts : Prop extends Facts₀ where

variable [Facts]
-- ==== Proof.WordRegion.lean ====
/-
  The masked-mean kernel's program around its one pipelined region, read at any float instance.

  Before the region the host gathers the six embedding tables row by row, joins the six pieces side by side
  into a 50000 x 36 array, and pads that array and the 2000 x 50000 membership matrix with zeros along the user
  axis up to 50176 = 49 * 1024. The region runs over a 2 x 49 grid: point (i, k) sees rows 1000 i .. 1000 i + 999
  of the padded membership matrix in columns 1024 k .. 1024 k + 1023, and rows 1024 k .. 1024 k + 1023 of the padded
  embeddings; its two outputs (a 1000 x 36 block of sums and a 1000 x 1 block of counts, both indexed by i alone)
  are kept across the 49 points of a row of the grid and written back at the last. After the region the host divides
  the sums by the counts and joins the result to the first argument.

  This module fixes what the region finds in every buffer (`V`: the launch contents after the host lines before the
  region), shows @main to be those lines, the region, and three lines after it, that the lines after the region
  touch only buffers they may and write no array of the pipeline, that no line before the region writes an argument,
  and names the windows' blocks and the one branch condition of the body (it holds exactly at k = 0).
-/
import proofs.«153469_j6107443495191_1_alg».proof.Proof.Gen.Kernel.Launch
import proofs.«153469_j6107443495191_1_alg».proof.Proof.Gen.Kernel.Skeleton
import proofs.«153469_j6107443495191_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the gathers, the join of the
    six pieces and the two zero paddings. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The lines after the region touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is none of the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The membership window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the embedding window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body resets its two accumulators when this holds of the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first point of each row of the grid — decided over the grid's 98 points. -/
theorem hcond0_0 : ∀ t : Fin cfg0.N, cond0_0 (grid0.coords t) ↔ t.val % 49 = 0 :=
  (by decide +kernel : ∀ t : Fin grid0.N, cond0_0 (grid0.coords t) ↔ t.val % 49 = 0)

/-! ## The staging memrefs the body is called with -/

/-- One staging buffer of each output window, through which its contents are stated. -/
abbrev VO0_2 : View sig .tc .vmem S1000x36 .f32 := (Memref.whole cc0_stg2_0 : Memref sig .tc .vmem S1000x36 .f32).view
abbrev VO0_3 : View sig .tc .vmem S1000x1 .f32 := (Memref.whole cc0_stg3_0 : Memref sig .tc .vmem S1000x1 .f32).view
/-- Each window's current staging memref at point `t`, as the pipeline passes it, and its wholeness. -/
abbrev ms0_0 (t : Fin cfg0.N) : Memref sig .tc .vmem S1000x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x36 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x36 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x1 .f32 := win0_3.stage (cfg0.slots t 3)
abbrev hs0_3 (t : Fin cfg0.N) : (ms0_3 t).IsWhole := hstage0_3 ((cfg0.slots t 3).cast nbuf0_3)

end Cert.Kernel.Region

end
-- ==== Proof.WordRuns.lean ====
/-
  The body of the masked-mean kernel run once per case of its one branch, on any whole staging memrefs.

  At the first block of users (k = 0) the body stores zeros into both accumulators, reads them back, adds this
  block's masked product and this block's row counts, and stores the sums; whatever the accumulators held before is
  overwritten. At a later block (k > 0) it reads the accumulators as the point before left them and stores them back
  with this block's contributions added. Either way the two input buffers are only read. Each run hands back, as a
  list of stored pieces per output, what the body's stores leave in the two accumulators.
-/
import proofs.«153469_j6107443495191_1_alg».proof.Proof.WordRegion

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first block of users: both accumulators may hold anything; they end with the pieces stored — the zeros,
    then zeros plus this block's contribution. -/
noncomputable def kernelRun0_A (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) :
    Σ' (L2 : List (View.Piece (Elt F) S1000x36 .f32)), { L3 : List (View.Piece (Elt F) S1000x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__masked_mean_kernel i arg2 harg2 arg3 harg3 arg4 harg4 arg5 harg5) K } := by
  refine ⟨?_, ?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 2000000 in
/-- A later block of users: the accumulators hold what the point before left (`xo2`, `xo3`); they end with the one
    piece stored into each — the old contents plus this block's contribution. -/
noncomputable def kernelRun0_B (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) :
    Σ' (L2 : List (View.Piece (Elt F) S1000x36 .f32)), { L3 : List (View.Piece (Elt F) S1000x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__masked_mean_kernel i arg2 harg2 arg3 harg3 arg4 harg4 arg5 harg5) K } := by
  refine ⟨?_, ?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Region

end
-- ==== Proof.WordFrame.lean ====
/-
  The masked-mean kernel's frame: it runs to the end at every grid point, faults nowhere, and the program's nine
  arguments end as they were launched — with every array of the pipeline named after the run.

  What the two accumulators hold after each grid point is defined by recursion on the point: at the first block of
  users of a row of the grid (position ≡ 0 mod 49) it is what the resetting case leaves from this point's membership
  and embedding blocks alone; at any other position it is what the accumulating case leaves from this point's blocks
  and from what the point before left (the accumulators are written back only at positions ≡ 48 mod 49, so nothing
  disturbs them in between). With that as the proof data, each point's body is one of the two runs, the pipeline's
  launch theorem gives the run of @main with its three host lines after the region, and the arguments — none of them
  an array of the pipeline, none written by a host line — are read off its post.
-/
import proofs.«153469_j6107443495191_1_alg».proof.Proof.WordRuns

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulators -/

/-- The resetting case's pieces for the sums tile their block, so they cover it. -/
theorem cover0_A_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) (y : S1000x36.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1000x36.size (by sl_kernel_rfl) y
/-- What the resetting case leaves in the sums' staging buffer: its pieces read back. -/
def out0_A_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) : Vec F S1000x36 .f32 :=
  VO0_2.read (Elt F) (VO0_2.writes (Elt F) VO0_2.junk (kernelRun0_A c i arg2 harg2 arg3 harg3 arg4 harg4 arg5 harg5 hc0 x0 x1).1)
/-- The resetting case's pieces for the counts tile their block. -/
theorem cover0_A_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) (y : S1000x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1000x1.size (by sl_kernel_rfl) y
/-- What the resetting case leaves in the counts' staging buffer. -/
def out0_A_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) : Vec F S1000x1 .f32 :=
  VO0_3.read (Elt F) (VO0_3.writes (Elt F) VO0_3.junk (kernelRun0_A c i arg2 harg2 arg3 harg3 arg4 harg4 arg5 harg5 hc0 x0 x1).2.1)

/-- The accumulating case's one piece for the sums is the whole block. -/
theorem cover0_B_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) (y : S1000x36.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1000x36.size (by sl_kernel_rfl) y
/-- What the accumulating case leaves in the sums' staging buffer. -/
def out0_B_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) : Vec F S1000x36 .f32 :=
  VO0_2.read (Elt F) (VO0_2.writes (Elt F) VO0_2.junk (kernelRun0_B c i arg2 harg2 arg3 harg3 arg4 harg4 arg5 harg5 hc0 x0 x1 xo2 xo3).1)
/-- The accumulating case's one piece for the counts is the whole block. -/
theorem cover0_B_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) (y : S1000x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1000x1.size (by sl_kernel_rfl) y
/-- What the accumulating case leaves in the counts' staging buffer. -/
def out0_B_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) : Vec F S1000x1 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The sums and the counts after the body at position `n`: the resetting case at the first block of users of a row
    of the grid, else the accumulating case over what position `n - 1` left. -/
def outsAt0 (c : Dev nD) : (n : ℕ) → n < cfg0.N → Vec F S1000x36 .f32 × Vec F S1000x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 49 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a first block of users: the resetting case's contents. -/
theorem outsAt0_A (c : Dev nD) (t : Fin cfg0.N) (h0 : t.val % 49 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At a later block: the accumulating case's contents, over what the point before left. -/
theorem outsAt0_B (c : Dev nD) (t : Fin cfg0.N) (h0 : ¬t.val % 49 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the accumulators' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later block the sums' staging buffer holds what the body left at the point before: it was not written back
    in between. -/
theorem before0_2_B (c : Dev nD) (t : Fin cfg0.N) (h0 : ¬t.val % 49 = 0) (d) :
    (dats m 0 c).before 2 t d = (outsAt0 m c (t.val - 1) (Nat.lt_of_le_of_lt (Nat.sub_le _ _) t.isLt)).1 := by
  have hN : t.val < 98 := lt_of_lt_of_eq t.isLt (show cfg0.N = 98 from N_0)
  rw [Dat.before_out_kept _ 2 rfl t (by omega) (Bool.eq_false_iff.mpr fun h => by have := (flush0_2 _).mp h; dsimp only at this; omega)
    (fun _ => rfl) (fun _ _ => rfl)]
  dsimp only [dats]
/-- The same for the counts. -/
theorem before0_3_B (c : Dev nD) (t : Fin cfg0.N) (h0 : ¬t.val % 49 = 0) (d) :
    (dats m 0 c).before 3 t d = (outsAt0 m c (t.val - 1) (Nat.lt_of_le_of_lt (Nat.sub_le _ _) t.isLt)).2 := by
  have hN : t.val < 98 := lt_of_lt_of_eq t.isLt (show cfg0.N = 98 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the position says which case the point is in; at a
    later block the accumulators hold what the point before left; so that case's run applies, and what its stores
    leave is this point's `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 98 := lt_of_lt_of_eq t.isLt (show cfg0.N = 98 from N_0)
  by_cases h0 : t.val % 49 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data give and every other unscoped buffer as the three host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The arguments after the run -/

/-- Argument 0 is no array of the pipeline and no host line after the region writes it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is no array of the pipeline and no host line after the region writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no array of the pipeline and no host line after the region writes it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the pipeline and no host line after the region writes it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is no array of the pipeline and no host line after the region writes it: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Argument 5 is no array of the pipeline and no host line after the region writes it: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Argument 6 is no array of the pipeline and no host line after the region writes it: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Argument 7 is no array of the pipeline and no host line after the region writes it: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Argument 8 is no array of the pipeline and no host line after the region writes it: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- THE FRAME: every weakly fair execution of @main terminates, faulting nowhere, with the nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.Kernel.Region

end
-- ==== Proof.IdealRegion.lean ====
/-
  The masked-mean kernel's program around its one pipelined region, read at any float instance.

  Before the region the host gathers the six embedding tables row by row, joins the six pieces side by side
  into a 50000 x 36 array, and pads that array and the 2000 x 50000 membership matrix with zeros along the user
  axis up to 50176 = 49 * 1024. The region runs over a 2 x 49 grid: point (i, k) sees rows 1000 i .. 1000 i + 999
  of the padded membership matrix in columns 1024 k .. 1024 k + 1023, and rows 1024 k .. 1024 k + 1023 of the padded
  embeddings; its two outputs (a 1000 x 36 block of sums and a 1000 x 1 block of counts, both indexed by i alone)
  are kept across the 49 points of a row of the grid and written back at the last. After the region the host divides
  the sums by the counts and joins the result to the first argument.

  This module fixes what the region finds in every buffer (`V`: the launch contents after the host lines before the
  region), shows @main to be those lines, the region, and three lines after it, that the lines after the region
  touch only buffers they may and write no array of the pipeline, that no line before the region writes an argument,
  and names the windows' blocks and the one branch condition of the body (it holds exactly at k = 0).
-/
import proofs.«153469_j6107443495191_1_alg».proof.Proof.Gen.KernelIdeal.Launch
import proofs.«153469_j6107443495191_1_alg».proof.Proof.Gen.KernelIdeal.Skeleton
import proofs.«153469_j6107443495191_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the gathers, the join of the
    six pieces and the two zero paddings. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the three host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    ⟨hostOps0_sub, hostOps0_1_sub, hostOps0_2_sub, hostOps0_3_sub⟩
    ⟨hostOps0_fresh, hostOps0_1_fresh, hostOps0_2_fresh, hostOps0_3_fresh⟩ main_chain

/-- The lines after the region touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is none of the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The membership window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the embedding window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body resets its two accumulators when this holds of the grid coordinates: the second coordinate is zero. -/
abbrev cond0_0 (i : grid0.Coords) : Prop := (Scalar.cmpi .ne (Scalar.extui (Scalar.cmpi .eq (BitVec.ofNat 32 (i 1).val) 0#32)) 0#32) = 1#1
/-- It holds at the first point of each row of the grid — decided over the grid's 98 points. -/
theorem hcond0_0 : ∀ t : Fin cfg0.N, cond0_0 (grid0.coords t) ↔ t.val % 49 = 0 :=
  (by decide +kernel : ∀ t : Fin grid0.N, cond0_0 (grid0.coords t) ↔ t.val % 49 = 0)

/-! ## The staging memrefs the body is called with -/

/-- One staging buffer of each output window, through which its contents are stated. -/
abbrev VO0_2 : View sig .tc .vmem S1000x36 .f32 := (Memref.whole cc0_stg2_0 : Memref sig .tc .vmem S1000x36 .f32).view
abbrev VO0_3 : View sig .tc .vmem S1000x1 .f32 := (Memref.whole cc0_stg3_0 : Memref sig .tc .vmem S1000x1 .f32).view
/-- Each window's current staging memref at point `t`, as the pipeline passes it, and its wholeness. -/
abbrev ms0_0 (t : Fin cfg0.N) : Memref sig .tc .vmem S1000x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x36 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x36 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x1 .f32 := win0_3.stage (cfg0.slots t 3)
abbrev hs0_3 (t : Fin cfg0.N) : (ms0_3 t).IsWhole := hstage0_3 ((cfg0.slots t 3).cast nbuf0_3)

end Cert.KernelIdeal.Region

end
-- ==== Proof.IdealRuns.lean ====
/-
  The body of the masked-mean kernel run once per case of its one branch, on any whole staging memrefs.

  At the first block of users (k = 0) the body stores zeros into both accumulators, reads them back, adds this
  block's masked product and this block's row counts, and stores the sums; whatever the accumulators held before is
  overwritten. At a later block (k > 0) it reads the accumulators as the point before left them and stores them back
  with this block's contributions added. Either way the two input buffers are only read. Each run hands back, as a
  list of stored pieces per output, what the body's stores leave in the two accumulators.
-/
import proofs.«153469_j6107443495191_1_alg».proof.Proof.IdealRegion

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first block of users: both accumulators may hold anything; they end with the pieces stored — the zeros,
    then zeros plus this block's contribution. -/
noncomputable def kernelRun0_A (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) :
    Σ' (L2 : List (View.Piece (Elt F) S1000x36 .f32)), { L3 : List (View.Piece (Elt F) S1000x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__masked_mean_kernel i arg2 harg2 arg3 harg3 arg4 harg4 arg5 harg5) K } := by
  refine ⟨?_, ?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 2000000 in
/-- A later block of users: the accumulators hold what the point before left (`xo2`, `xo3`); they end with the one
    piece stored into each — the old contents plus this block's contribution. -/
noncomputable def kernelRun0_B (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) :
    Σ' (L2 : List (View.Piece (Elt F) S1000x36 .f32)), { L3 : List (View.Piece (Elt F) S1000x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__masked_mean_kernel i arg2 harg2 arg3 harg3 arg4 harg4 arg5 harg5) K } := by
  refine ⟨?_, ?_, fun E K => ?run⟩
  case run =>
    simp only [cc0__masked_mean_kernel_eq_skeleton]; unfold cc0__masked_mean_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Region

end
-- ==== Proof.IdealFrame.lean ====
/-
  The masked-mean kernel's frame: it runs to the end at every grid point, faults nowhere, and the program's nine
  arguments end as they were launched — with every array of the pipeline named after the run.

  What the two accumulators hold after each grid point is defined by recursion on the point: at the first block of
  users of a row of the grid (position ≡ 0 mod 49) it is what the resetting case leaves from this point's membership
  and embedding blocks alone; at any other position it is what the accumulating case leaves from this point's blocks
  and from what the point before left (the accumulators are written back only at positions ≡ 48 mod 49, so nothing
  disturbs them in between). With that as the proof data, each point's body is one of the two runs, the pipeline's
  launch theorem gives the run of @main with its three host lines after the region, and the arguments — none of them
  an array of the pipeline, none written by a host line — are read off its post.
-/
import proofs.«153469_j6107443495191_1_alg».proof.Proof.IdealRuns

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulators -/

/-- The resetting case's pieces for the sums tile their block, so they cover it. -/
theorem cover0_A_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) (y : S1000x36.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1000x36.size (by sl_kernel_rfl) y
/-- What the resetting case leaves in the sums' staging buffer: its pieces read back. -/
def out0_A_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) : Vec F S1000x36 .f32 :=
  VO0_2.read (Elt F) (VO0_2.writes (Elt F) VO0_2.junk (kernelRun0_A c i arg2 harg2 arg3 harg3 arg4 harg4 arg5 harg5 hc0 x0 x1).1)
/-- The resetting case's pieces for the counts tile their block. -/
theorem cover0_A_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) (y : S1000x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1000x1.size (by sl_kernel_rfl) y
/-- What the resetting case leaves in the counts' staging buffer. -/
def out0_A_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) : Vec F S1000x1 .f32 :=
  VO0_3.read (Elt F) (VO0_3.writes (Elt F) VO0_3.junk (kernelRun0_A c i arg2 harg2 arg3 harg3 arg4 harg4 arg5 harg5 hc0 x0 x1).2.1)

/-- The accumulating case's one piece for the sums is the whole block. -/
theorem cover0_B_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) (y : S1000x36.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1000x36.size (by sl_kernel_rfl) y
/-- What the accumulating case leaves in the sums' staging buffer. -/
def out0_B_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) : Vec F S1000x36 .f32 :=
  VO0_2.read (Elt F) (VO0_2.writes (Elt F) VO0_2.junk (kernelRun0_B c i arg2 harg2 arg3 harg3 arg4 harg4 arg5 harg5 hc0 x0 x1 xo2 xo3).1)
/-- The accumulating case's one piece for the counts is the whole block. -/
theorem cover0_B_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) (y : S1000x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1000x1.size (by sl_kernel_rfl) y
/-- What the accumulating case leaves in the counts' staging buffer. -/
def out0_B_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) : Vec F S1000x1 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The sums and the counts after the body at position `n`: the resetting case at the first block of users of a row
    of the grid, else the accumulating case over what position `n - 1` left. -/
def outsAt0 (c : Dev nD) : (n : ℕ) → n < cfg0.N → Vec F S1000x36 .f32 × Vec F S1000x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 49 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a first block of users: the resetting case's contents. -/
theorem outsAt0_A (c : Dev nD) (t : Fin cfg0.N) (h0 : t.val % 49 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At a later block: the accumulating case's contents, over what the point before left. -/
theorem outsAt0_B (c : Dev nD) (t : Fin cfg0.N) (h0 : ¬t.val % 49 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the accumulators' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later block the sums' staging buffer holds what the body left at the point before: it was not written back
    in between. -/
theorem before0_2_B (c : Dev nD) (t : Fin cfg0.N) (h0 : ¬t.val % 49 = 0) (d) :
    (dats m 0 c).before 2 t d = (outsAt0 m c (t.val - 1) (Nat.lt_of_le_of_lt (Nat.sub_le _ _) t.isLt)).1 := by
  have hN : t.val < 98 := lt_of_lt_of_eq t.isLt (show cfg0.N = 98 from N_0)
  rw [Dat.before_out_kept _ 2 rfl t (by omega) (Bool.eq_false_iff.mpr fun h => by have := (flush0_2 _).mp h; dsimp only at this; omega)
    (fun _ => rfl) (fun _ _ => rfl)]
  dsimp only [dats]
/-- The same for the counts. -/
theorem before0_3_B (c : Dev nD) (t : Fin cfg0.N) (h0 : ¬t.val % 49 = 0) (d) :
    (dats m 0 c).before 3 t d = (outsAt0 m c (t.val - 1) (Nat.lt_of_le_of_lt (Nat.sub_le _ _) t.isLt)).2 := by
  have hN : t.val < 98 := lt_of_lt_of_eq t.isLt (show cfg0.N = 98 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the position says which case the point is in; at a
    later block the accumulators hold what the point before left; so that case's run applies, and what its stores
    leave is this point's `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 98 := lt_of_lt_of_eq t.isLt (show cfg0.N = 98 from N_0)
  by_cases h0 : t.val % 49 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data give and every other unscoped buffer as the three host lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The arguments after the run -/

/-- Argument 0 is no array of the pipeline and no host line after the region writes it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 is no array of the pipeline and no host line after the region writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no array of the pipeline and no host line after the region writes it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Argument 3 is no array of the pipeline and no host line after the region writes it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Argument 4 is no array of the pipeline and no host line after the region writes it: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Argument 5 is no array of the pipeline and no host line after the region writes it: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Argument 6 is no array of the pipeline and no host line after the region writes it: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Argument 7 is no array of the pipeline and no host line after the region writes it: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- Argument 8 is no array of the pipeline and no host line after the region writes it: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- THE FRAME: every weakly fair execution of @main terminates, faulting nowhere, with the nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Region

end
-- ==== Proof.IdealPieces.lean ====
/-
  What the body leaves in its two accumulators, case by case, as its own arithmetic of what it read.

  The body's stores are whole-block stores, so what a buffer holds afterwards is the last value stored. At a first
  block of users that value is computed from the zeros stored just before (read back through the same buffer); at a
  later block it is computed from what the buffer held on entry. In both cases the stored value is the body's named
  arithmetic — the running sums plus this block's masked product, the running counts plus this block's row counts —
  applied to the whole input blocks.
-/
import proofs.«153469_j6107443495191_1_alg».proof.Proof.IdealFrame
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as the body's arithmetic of what it read -/

theorem hz : (![0, 0] : Fin 2 → Nat) = fun _ => 0 := funext fun a => by fin_cases a <;> rfl

/-- A later block leaves in the sums' buffer its old contents plus this block's masked product. -/
theorem out_B_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz]
  simp only [View.readAt_eq_ld, harg2.read_unread, harg3.read_unread, harg4.read_unread, harg5.read_unread, View.ld_unit_zero (S := S1000x1024) hz, View.ld_unit_zero (S := S1024x36) hz, View.ld_unit_zero (S := S1000x36) hz, View.ld_unit_zero (S := S1000x1) hz]

/-- A later block leaves in the counts' buffer its old contents plus this block's row counts. -/
theorem out_B_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : ¬cond0_0 i)
    (x0 : Vec F S1000x1024 .i32) (x1 : Vec F S1024x36 .f32) (xo2 : Vec F S1000x36 .f32) (xo3 : Vec F S1000x1 .f32) :
    out0_B_3 c i arg2 harg2 arg3 harg3 arg4 harg4 arg5 harg5 hc0 x0 x1 xo2 xo3 = k0_pay5 x0 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz]
  simp only [View.readAt_eq_ld, harg2.read_unread, harg3.read_unread, harg4.read_unread, harg5.read_unread, View.ld_unit_zero (S := S1000x1024) hz, View.ld_unit_zero (S := S1024x36) hz, View.ld_unit_zero (S := S1000x36) hz, View.ld_unit_zero (S := S1000x1) hz]

/-- The first block leaves in the sums' buffer zero plus this block's masked product. -/
theorem out_A_2 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) :
    out0_A_2 c i arg2 harg2 arg3 harg3 arg4 harg4 arg5 harg5 hc0 x0 x1 = k0_pay4 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1000x36) hz, View.readCov_unit_zero (S := S1000x36) _ hz]
  simp only [View.readAt_eq_ld, harg2.read_unread, harg3.read_unread, harg4.read_unread, harg5.read_unread, View.ld_unit_zero (S := S1000x1024) hz, View.ld_unit_zero (S := S1024x36) hz, View.ld_unit_zero (S := S1000x36) hz, View.ld_unit_zero (S := S1000x1) hz]

/-- The first block leaves in the counts' buffer zero plus this block's row counts. -/
theorem out_A_3 (c : Dev nD) (i : grid0.Coords) (arg2 : Memref sig .tc .vmem S1000x1024 .i32) (harg2 : arg2.IsWhole) (arg3 : Memref sig .tc .vmem S1024x36 .f32) (harg3 : arg3.IsWhole) (arg4 : Memref sig .tc .vmem S1000x36 .f32) (harg4 : arg4.IsWhole) (arg5 : Memref sig .tc .vmem S1000x1 .f32) (harg5 : arg5.IsWhole) (hc0 : cond0_0 i)
    (x0 : Vec F S1000x1024 .i32) (x1 : Vec F S1024x36 .f32) :
    out0_A_3 c i arg2 harg2 arg3 harg3 arg4 harg4 arg5 harg5 hc0 x0 x1 = k0_pay5 x0 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1000x1) hz, View.readCov_unit_zero (S := S1000x1) _ hz]
  simp only [View.readAt_eq_ld, harg2.read_unread, harg3.read_unread, harg4.read_unread, harg5.read_unread, View.ld_unit_zero (S := S1000x1024) hz, View.ld_unit_zero (S := S1024x36) hz, View.ld_unit_zero (S := S1000x36) hz, View.ld_unit_zero (S := S1000x1) hz]

end Cert.KernelIdeal.Region

end
-- ==== Proof.MaskedMean.lean ====
/-
  The masked mean, as mathematics over the extended reals, and the summation laws that join the kernel to the reference.

  A team's embedding sum is the sum, over all 50000 users, of the user's 36-entry embedding row wherever the
  membership word is 1; its count is the number of such users. The reference computes both in one sweep. The kernel
  pads the user axis with zeros to 50176 = 49 * 1024 and sweeps it in 49 blocks of 1024, starting each accumulator at
  zero: ((0 + d_0) + d_1) + ... + d_k. Addition of extended reals is commutative and associative with 0 neutral, so the
  running value after block k is the plain sum of d_0 .. d_k, the 49 block sums together are the sum over all 50176
  padded positions, and the 176 padded positions contribute zeros: the kernel's sums are the reference's. No
  finiteness is needed anywhere: the laws used hold for every extended real.
-/
import Idealize.ShloMosaic.PureOps.Ideal.Laws
import Idealize.ShloMosaic.Lib.ValueIdx
import Idealize.ShloMosaic.Lib.Pipeline.Value
import Mathlib.Algebra.BigOperators.Intervals
import Mathlib.Algebra.BigOperators.Fin

noncomputable section

namespace Cert.MaskedMean

open Idealize.ShloMosaic Idealize.ShloMosaic.ValueIdx

/-! ## Summation laws in a commutative monoid -/

section Laws
variable {M : Type} [AddCommMonoid M]

/-- A sum over `n` consecutive blocks of `B` positions is the sum over the first `B * n` positions. -/
theorem sum_blocks (B : ℕ) (g : ℕ → M) : ∀ n : ℕ,
    ∑ k ∈ Finset.range n, ∑ u ∈ Finset.range B, g (B * k + u) = ∑ j ∈ Finset.range (B * n), g j
  | 0 => by simp
  | n + 1 => by
    rw [Finset.sum_range_succ, sum_blocks B g n, Nat.mul_succ, Finset.sum_range_add]

/-- Positions past `N` holding zero, the sum over `N + P` positions is the sum over the first `N`. -/
theorem sum_padded (N P : ℕ) (g : ℕ → M) (hg : ∀ j, N ≤ j → g j = 0) :
    ∑ j ∈ Finset.range (N + P), g j = ∑ j ∈ Finset.range N, g j := by
  rw [Finset.sum_range_add, Finset.sum_eq_zero (fun x _ => hg (N + x) (Nat.le_add_right _ _)), add_zero]

/-- The 49 blocks of 1024 padded positions sum to the 50000 real ones. -/
theorem sum_49_blocks (g : ℕ → M) (hg : ∀ j, 50000 ≤ j → g j = 0) :
    ∑ k ∈ Finset.range 49, ∑ u : Fin 1024, g (1024 * k + u.val) = ∑ j : Fin 50000, g j.val := by
  have h1 : ∀ k, ∑ u : Fin 1024, g (1024 * k + u.val) = ∑ u ∈ Finset.range 1024, g (1024 * k + u) :=
    fun k => Fin.sum_univ_eq_sum_range (fun u => g (1024 * k + u)) 1024
  rw [Finset.sum_congr rfl (fun k _ => h1 k), sum_blocks 1024 g 49,
    show 1024 * 49 = 50000 + 176 from rfl, sum_padded 50000 176 g hg, ← Fin.sum_univ_eq_sum_range]

/-- An accumulator started at zero and increased by `d k` at step `k`. -/
def runSum (d : ℕ → M) : ℕ → M
  | 0 => 0 + d 0
  | k + 1 => runSum d k + d (k + 1)

/-- It is the plain sum of the increments so far. -/
theorem runSum_eq (d : ℕ → M) : ∀ k, runSum d k = ∑ k' ∈ Finset.range (k + 1), d k'
  | 0 => by simp [runSum]
  | k + 1 => by rw [runSum, runSum_eq d k, Finset.sum_range_succ (n := k + 1)]

end Laws

/-! ## The masked mean's two sums -/

/-- A membership word as a number: one where the word is 1, zero elsewhere. -/
def ind (w : BitVec 32) : EReal := if w = 1#32 then 1 else 0

theorem ind_zero : ind 0#32 = 0 := if_neg (by decide)

/-- The word compare against 1, as a one-bit word. -/
theorem cmpi_eq_one (w : BitVec 32) : IntOp.cmpi .eq w 1#32 = if w = 1#32 then 1#1 else 0#1 := by
  unfold IntOp.cmpi
  by_cases h : w = 1#32
  · subst h; rfl
  · rw [if_neg h]
    have hb : (w == 1#32) = false := beq_eq_false_iff_ne.mpr h
    show BitVec.ofBool (w == 1#32) = 0#1
    rw [hb]; rfl

/-- The kernel's membership number — the compare widened to a 32-bit word and read as a signed integer — is `ind`. -/
theorem ind_of_sitofp (w : BitVec 32) :
    (FloatOps.sitofp (F := Ideal) .f32 ((IntOp.cmpi .eq w 1#32).setWidth 32) : EReal) = ind w := by
  show (((((IntOp.cmpi .eq w 1#32).setWidth 32).toInt : ℤ) : ℝ) : EReal) = ind w
  rw [cmpi_eq_one]; unfold ind
  by_cases h : w = 1#32
  · rw [if_pos h, if_pos h, show ((1#1 : BitVec 1).setWidth 32).toInt = 1 from by decide]; norm_num
  · rw [if_neg h, if_neg h, show ((0#1 : BitVec 1).setWidth 32).toInt = 0 from by decide]; norm_num

/-- The reference's membership number — the compare read as an unsigned integer — is `ind` too. -/
theorem ind_of_uitofp (w : BitVec 32) :
    (FloatOps.uitofp (F := Ideal) .f32 (IntOp.cmpi .eq w 1#32) : EReal) = ind w := by
  show ((((IntOp.cmpi .eq w 1#32).toNat : ℕ) : ℝ) : EReal) = ind w
  rw [cmpi_eq_one]; unfold ind
  by_cases h : w = 1#32
  · rw [if_pos h, if_pos h, show (1#1 : BitVec 1).toNat = 1 from by decide]; norm_num
  · rw [if_neg h, if_neg h, show (0#1 : BitVec 1).toNat = 0 from by decide]; norm_num

/-- Team `r`'s embedding sum in column `q`: over the users whose membership word is 1. -/
def msum (T : (⟨2, ![2000, 50000]⟩ : Shape).Idx → BitVec 32) (U : (⟨2, ![50000, 36]⟩ : Shape).Idx → EReal)
    (r : Fin 2000) (q : Fin 36) : EReal :=
  ∑ j : Fin 50000, ind (T (ix2 r j)) * U (ix2 j q)

/-- Team `r`'s member count. -/
def mcount (T : (⟨2, ![2000, 50000]⟩ : Shape).Idx → BitVec 32) (r : Fin 2000) : EReal :=
  ∑ j : Fin 50000, ind (T (ix2 r j))

/-- The program's last three lines, shared by the kernel and the reference: the sums divided by the counts laid along
    the 36 columns, joined to the first argument's 16 columns. -/
def joined (a0 : FVec Ideal ⟨2, ![2000, 16]⟩ .f32) (S : FVec Ideal ⟨2, ![2000, 36]⟩ .f32) (C : FVec Ideal ⟨2, ![2000, 1]⟩ .f32)
    (hb : (⟨2, ![2000, 1]⟩ : Shape).BroadcastsInDim ⟨2, ![2000, 36]⟩ (![0, 1] : Fin 2 → Fin 2))
    (hc : Shape.Concatenates [(⟨2, ![2000, 16]⟩ : Shape), ⟨2, ![2000, 36]⟩] ⟨2, ![2000, 52]⟩ 1) :
    FVec Ideal ⟨2, ![2000, 52]⟩ .f32 :=
  concatenate ⟨2, ![2000, 52]⟩ 1 [⟨⟨2, ![2000, 16]⟩, a0⟩,
    ⟨⟨2, ![2000, 36]⟩, Host.divf (F := Ideal) S (broadcastInDim ⟨2, ![2000, 36]⟩ ![0, 1] hb C)⟩] hc

/-- A row of an `M x N` array summed by the host along its `N` columns from `init`: `init` plus the row's entries. -/
theorem hostRowsum_apply {M N : ℕ} (x : (⟨2, ![M, N]⟩ : Shape).Idx → EReal) (init : EReal)
    (h' : Shape.ReducesTo ⟨2, ![M, N]⟩ [1] ⟨1, ![M]⟩) (h : Shape.Reduces ⟨2, ![M, N]⟩ [1] ⟨1, ![M]⟩) (p : Fin M) :
    Ideal.hostReduceAdd h' x init (ix1 p) = init + ∑ u : Fin N, x (ix2 p u) := by
  refine (Ideal.hostReduceAdd_single h' h x init (ix1 p)).trans ?_
  show init + ∑ u : Fin N, x (h.lift (ix1 p) u) = _
  refine congrArg (init + ·) (Finset.sum_congr rfl fun u _ => congrArg x ?_)
  funext a
  refine Fin.ext ?_
  match a with
  | ⟨0, _⟩ => rfl
  | ⟨1, _⟩ => rfl

/-- A length-`a` vector broadcast along a new unit axis into an `a x 1` column reads, at `(i, u)`, the vector at `i`. -/
theorem column_of_vec {α : Type} {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) ?_
  intro b
  match b with
  | ⟨0, _⟩ =>
    show i.val = if a = 1 then 0 else i.val
    split
    · have := i.isLt; omega
    · rfl

end Cert.MaskedMean

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.IdealPayload.lean ====
/-
  The body's arithmetic, read entry by entry over the extended reals.

  The membership block's words are compared with 1, widened and converted to numbers — one where the word is 1, zero
  elsewhere; changing the number format is the identity on extended reals. The matrix unit's product into a zero
  accumulator is, at row p and column q, the sum over the block's 1024 users of membership number times embedding
  entry; the lane reduction is, at row p, the sum of the membership numbers. Each payload adds that to the
  accumulator it was given.
-/
import proofs.«153469_j6107443495191_1_alg».proof.Proof.Gen.KernelIdeal.Skeleton
import proofs.«153469_j6107443495191_1_alg».proof.Proof.MaskedMean
import proofs.«153469_j6107443495191_1_alg».proof.Proof.LibMatmul
import Idealize.ShloMosaic.Lib.Pipeline.Value
import Idealize.ShloMosaic.Lib.ValueLayout

noncomputable section

namespace Cert.KernelIdeal.Payload

open Cert.KernelIdeal Cert.KernelIdeal.Gen Cert.MaskedMean Idealize.ShloMosaic Idealize.ShloMosaic.ValueIdx

/-- The printed dimension numbers are those of a plain 1000 x 1024 by 1024 x 36 product. -/
theorem dims_plain : dot_S1000x1024_S1024x36_S1000x36_1_0_0_1_n_n = DotDims.plain 1000 1024 36 := rfl

/-- A length-`a` vector laid out as an `a x 1` column reads, at `(i, u)`, the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The zero blocks the reset stores read zero everywhere. -/
theorem pay1_apply (j : S1000x36.Idx) : k0_pay1 (F := Ideal) j = 0 := by
  show Ideal.ofBits .f32 0x00000000#32 = 0
  exact Ideal.ofBits_zero_f32
theorem pay2_apply (j : S1000x1.Idx) : k0_pay2 (F := Ideal) j = 0 := by
  show Ideal.ofBits .f32 0x00000000#32 = 0
  exact Ideal.ofBits_zero_f32

/-- The sums' payload at row `p`, column `q`: the old sum plus, over this block's 1024 users, the membership number
    times the user's embedding entry. -/
theorem pay4_apply (x0 : Vec Ideal S1000x1024 .i32) (x1 : Vec Ideal S1024x36 .f32) (acc : Vec Ideal S1000x36 .f32)
    (p : Fin 1000) (q : Fin 36) :
    k0_pay4 (F := Ideal) x0 x1 acc (ix2 p q) = acc (ix2 p q) + ∑ u : Fin 1024, ind (x0 (ix2 p u)) * x1 (ix2 u q) := by
  unfold k0_pay4 k0_pay3
  refine (addf_apply _ _ _).trans ?_
  refine congrArg₂ (· + ·) (congrFun (shapeCast_self acc _) _) ?_
  refine (Cert.Matmul.matmul_plain_apply (M := 1000) (K := 1024) (N := 36) none _ _ p q).trans ?_
  refine Finset.sum_congr rfl fun u _ => ?_
  refine congrArg₂ (· * ·) ?_ (congrFun (shapeCast_self x1 _) _)
  show FloatOps.sitofp (F := Ideal) .f32 ((IntOp.cmpi .eq ((shapeCast S1000x1024 x0 shapeCasts_S1000x1024_S1000x1024) (ix2 p u)) 1#32).setWidth 32) = _
  rw [shapeCast_self]
  exact ind_of_sitofp _

/-- A row of an `M x N` block summed along its `N` lanes from the neutral element: the plain sum of the row's entries. -/
theorem rowsum_apply {M N : ℕ} {φ : FTy} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (p : Fin M) :
    multiReduction .add [1] ⟨1, ![M]⟩ src acc h hφ hacc (ix1 p) = ∑ u : Fin N, src (ix2 p u) := by
  refine (Ideal.multiReduction_add_single (a := (1 : Fin 2)) src acc h hφ hacc (ix1 p)).trans ?_
  show ∑ u : Fin N, src (h.lift (ix1 p) u) = _
  refine Finset.sum_congr rfl fun u _ => congrArg src ?_
  funext a
  refine Fin.ext ?_
  match a with
  | ⟨0, _⟩ => rfl
  | ⟨1, _⟩ => rfl

/-- The counts' payload at row `p`: the old count plus the number of this block's users whose word is 1. -/
theorem pay5_apply (x0 : Vec Ideal S1000x1024 .i32) (acc : Vec Ideal S1000x1 .f32) (p : Fin 1000) (z : Fin 1) :
    k0_pay5 (F := Ideal) x0 acc (ix2 p z) = acc (ix2 p z) + ∑ u : Fin 1024, ind (x0 (ix2 p u)) := by
  unfold k0_pay5 k0_pay3
  refine (addf_apply _ _ _).trans ?_
  refine congrArg₂ (· + ·) (congrFun (shapeCast_self acc _) _) ?_
  refine (column_apply _ _ p z).trans ?_
  refine (rowsum_apply (M := 1000) (N := 1024) _ _ _ _ _ p).trans ?_
  refine Finset.sum_congr rfl fun u _ => ?_
  show FloatOps.sitofp (F := Ideal) .f32 ((IntOp.cmpi .eq ((shapeCast S1000x1024 x0 shapeCasts_S1000x1024_S1000x1024) (ix2 p u)) 1#32).setWidth 32) = _
  rw [shapeCast_self]
  exact ind_of_sitofp _

end Cert.KernelIdeal.Payload

end
-- ==== Proof.IdealSums.lean ====
/-
  The region's two result arrays, read over the extended reals.

  Position t of the 2 x 49 grid is row t / 49, block t % 49. The membership block read at (p, u) is the padded
  matrix at team 1000 (t / 49) + p, position 1024 (t % 49) + u; the embedding block at (u, q) is the padded embeddings
  at position 1024 (t % 49) + u, column q. So each point adds, to the accumulators the point before left (or to zero
  at the first block of a row of the grid), that block's contribution to every team's sums and count, and after
  block k the accumulators hold the running sum of blocks 0 .. k. The accumulators are written back at the last
  block of each row of the grid, when all 49 contributions are in, and the two write-backs together cover all 2000 teams.
-/
import proofs.«153469_j6107443495191_1_alg».proof.Proof.IdealPieces
import proofs.«153469_j6107443495191_1_alg».proof.Proof.IdealPayload

set_option maxRecDepth 16384

noncomputable section

namespace Cert.KernelIdeal.Sums

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Region Cert.KernelIdeal.Payload Cert.MaskedMean
open Idealize.ShloMosaic.ValueIdx

variable (m : (ℓ : Loc nD τ sig) → Buf (Elt Ideal) ℓ) (ρ : Dev nD → PrngReg)

/-! ## The padded arrays, read at natural-number positions -/

/-- The zero-padded membership matrix and the zero-padded embeddings, as the region finds them. -/
abbrev TP (c : Dev nD) : S2000x50176.Idx → BitVec 32 := V m c main_v55
abbrev UP (c : Dev nD) : S50176x36.Idx → EReal := V m c main_v56

/-- The padded membership word of team `r`, position `j` (zero outside the array). -/
def tp (c : Dev nD) (r j : ℕ) : BitVec 32 :=
  if h : r < 2000 ∧ j < 50176 then TP m c (ix2 ⟨r, h.1⟩ ⟨j, h.2⟩) else 0#32
/-- The padded embedding entry of position `j`, column `q` (zero outside the array). -/
def up (c : Dev nD) (j q : ℕ) : EReal :=
  if h : j < 50176 ∧ q < 36 then UP m c (ix2 ⟨j, h.1⟩ ⟨q, h.2⟩) else 0

/-- Block `k`'s contribution to the sum of team `1000 i + p`, column `q`. -/
def dsum (c : Dev nD) (i k p q : ℕ) : EReal :=
  ∑ u : Fin 1024, ind (tp m c (1000 * i + p) (1024 * k + u.val)) * up m c (1024 * k + u.val) q
/-- Block `k`'s contribution to the count of team `1000 i + p`. -/
def dcnt (c : Dev nD) (i k p : ℕ) : EReal :=
  ∑ u : Fin 1024, ind (tp m c (1000 * i + p) (1024 * k + u.val))

/-! ## The windows' blocks -/

/-- The two input blocks at point `t`, at their literal types. -/
abbrev xblk (c : Dev nD) (t : Fin cfg0.N) : Vec Ideal S1000x1024 .i32 := iblk m c 0 t
abbrev ublk (c : Dev nD) (t : Fin cfg0.N) : Vec Ideal S1024x36 .f32 := iblk m c 1 t

/-- Position `t` of the grid is row `t / 49`, block `t % 49`: the membership window sits at block (t / 49, t % 49), the
    embedding window at (t % 49, 0), both outputs at (t / 49, 0). -/
theorem idx_facts : ∀ t : Fin cfg0.N, win0_0.index t (0 : Fin 2) = t.val / 49 ∧ win0_0.index t (1 : Fin 2) = t.val % 49
    ∧ win0_1.index t (0 : Fin 2) = t.val % 49 ∧ win0_1.index t (1 : Fin 2) = 0
    ∧ win0_2.index t (0 : Fin 2) = t.val / 49 ∧ win0_2.index t (1 : Fin 2) = 0
    ∧ win0_3.index t (0 : Fin 2) = t.val / 49 ∧ win0_3.index t (1 : Fin 2) = 0 :=
  (by decide +kernel : ∀ t : Fin grid0.N, _)

/-- The membership block at (p, u) is the padded matrix at team 1000 (t / 49) + p, position 1024 (t % 49) + u. -/
theorem xblk_apply (c : Dev nD) (t : Fin cfg0.N) (p : Fin 1000) (u : Fin 1024) :
    xblk m c t (ix2 p u) = tp m c (1000 * (t.val / 49) + p.val) (1024 * (t.val % 49) + u.val) := by
  have h98 : t.val < 98 := lt_of_lt_of_eq t.isLt N_0
  obtain ⟨e0, e1, -⟩ := idx_facts t
  have hb : 1000 * (t.val / 49) + p.val < 2000 ∧ 1024 * (t.val % 49) + u.val < 50176 := by
    have := p.isLt; have := u.isLt; omega
  unfold tp; rw [dif_pos hb]
  show iblk m c 0 t (ix2 p u) = _
  unfold iblk
  rw [View.read_apply]
  show V m c main_v55 _ = V m c main_v55 _
  congr 1
  funext a; apply Fin.ext
  match a with
  | ⟨0, _⟩ => show win0_0.index t (0 : Fin 2) * 1000 + 1 * p.val = 1000 * (t.val / 49) + p.val; rw [e0]; omega
  | ⟨1, _⟩ => show win0_0.index t (1 : Fin 2) * 1024 + 1 * u.val = 1024 * (t.val % 49) + u.val; rw [e1]; omega

/-- The embedding block at (u, q) is the padded embeddings at position 1024 (t % 49) + u, column q. -/
theorem ublk_apply (c : Dev nD) (t : Fin cfg0.N) (u : Fin 1024) (q : Fin 36) :
    ublk m c t (ix2 u q) = up m c (1024 * (t.val % 49) + u.val) q.val := by
  have h98 : t.val < 98 := lt_of_lt_of_eq t.isLt N_0
  obtain ⟨-, -, e2, e3, -⟩ := idx_facts t
  have hb : 1024 * (t.val % 49) + u.val < 50176 ∧ q.val < 36 := by
    have := q.isLt; have := u.isLt; omega
  unfold up; rw [dif_pos hb]
  show iblk m c 1 t (ix2 u q) = _
  unfold iblk
  rw [View.read_apply]
  show V m c main_v56 _ = V m c main_v56 _
  congr 1
  funext a; apply Fin.ext
  match a with
  | ⟨0, _⟩ => show win0_1.index t (0 : Fin 2) * 1024 + 1 * u.val = 1024 * (t.val % 49) + u.val; rw [e2]; omega
  | ⟨1, _⟩ => show win0_1.index t (1 : Fin 2) * 36 + 1 * q.val = q.val; rw [e3]; omega

/-! ## One step of each accumulator -/

/-- This point's masked product at (p, q) is the block's contribution. -/
theorem prod_eq (c : Dev nD) (t : Fin cfg0.N) (p : Fin 1000) (q : Fin 36) :
    (∑ u : Fin 1024, ind (xblk m c t (ix2 p u)) * ublk m c t (ix2 u q)) = dsum m c (t.val / 49) (t.val % 49) p.val q.val := by
  unfold dsum
  refine Finset.sum_congr rfl fun u _ => ?_
  rw [xblk_apply, ublk_apply]
/-- This point's row count at p is the block's contribution. -/
theorem count_eq (c : Dev nD) (t : Fin cfg0.N) (p : Fin 1000) :
    (∑ u : Fin 1024, ind (xblk m c t (ix2 p u))) = dcnt m c (t.val / 49) (t.val % 49) p.val := by
  unfold dcnt
  refine Finset.sum_congr rfl fun u _ => ?_
  rw [xblk_apply]

theorem sums_first (c : Dev nD) (t : Fin cfg0.N) (h0 : t.val % 49 = 0) (p : Fin 1000) (q : Fin 36) :
    (outsAt0 m c t.val t.isLt).1 (ix2 p q) = 0 + dsum m c (t.val / 49) (t.val % 49) p.val q.val := by
  rw [outsAt0_A m c t h0]; dsimp only
  refine (congrFun (out_A_2 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix2 p q)).trans ?_
  refine (pay4_apply (xblk m c t) (ublk m c t) (k0_pay1 (F := Ideal)) p q).trans ?_
  rw [pay1_apply, prod_eq]

theorem sums_later (c : Dev nD) (t : Fin cfg0.N) (h0 : ¬t.val % 49 = 0) (p : Fin 1000) (q : Fin 36) :
    (outsAt0 m c t.val t.isLt).1 (ix2 p q)
      = (outsAt0 m c (t.val - 1) (Nat.lt_of_le_of_lt (Nat.sub_le _ _) t.isLt)).1 (ix2 p q) + dsum m c (t.val / 49) (t.val % 49) p.val q.val := by
  rw [outsAt0_B m c t h0]; dsimp only
  refine (congrFun (out_B_2 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) (ix2 p q)).trans ?_
  refine (pay4_apply (xblk m c t) (ublk m c t) (outsAt0 m c (t.val - 1) (Nat.lt_of_le_of_lt (Nat.sub_le _ _) t.isLt)).1 p q).trans ?_
  rw [prod_eq]

theorem cnts_first (c : Dev nD) (t : Fin cfg0.N) (h0 : t.val % 49 = 0) (p : Fin 1000) (z : Fin 1) :
    (outsAt0 m c t.val t.isLt).2 (ix2 p z) = 0 + dcnt m c (t.val / 49) (t.val % 49) p.val := by
  rw [outsAt0_A m c t h0]; dsimp only
  refine (congrFun (out_A_3 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix2 p z)).trans ?_
  refine (pay5_apply (xblk m c t) (k0_pay2 (F := Ideal)) p z).trans ?_
  rw [pay2_apply, count_eq]

theorem cnts_later (c : Dev nD) (t : Fin cfg0.N) (h0 : ¬t.val % 49 = 0) (p : Fin 1000) (z : Fin 1) :
    (outsAt0 m c t.val t.isLt).2 (ix2 p z)
      = (outsAt0 m c (t.val - 1) (Nat.lt_of_le_of_lt (Nat.sub_le _ _) t.isLt)).2 (ix2 p z) + dcnt m c (t.val / 49) (t.val % 49) p.val := by
  rw [outsAt0_B m c t h0]; dsimp only
  refine (congrFun (out_B_3 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) (ix2 p z)).trans ?_
  refine (pay5_apply (xblk m c t) (outsAt0 m c (t.val - 1) (Nat.lt_of_le_of_lt (Nat.sub_le _ _) t.isLt)).2 p z).trans ?_
  rw [count_eq]

/-! ## The accumulators after each point, in closed form -/

/-- After position `n` the sums hold, at (p, q), the running sum over blocks 0 .. n % 49 of row n / 49's contributions. -/
theorem sums_at (c : Dev nD) : ∀ (n : ℕ) (h : n < cfg0.N) (p : Fin 1000) (q : Fin 36),
    (outsAt0 m c n h).1 (ix2 p q) = runSum (fun k => dsum m c (n / 49) k p.val q.val) (n % 49)
  | 0, h, p, q => by
    rw [sums_first m c ⟨0, h⟩ rfl p q]; rfl
  | n + 1, h, p, q => by
    by_cases h0 : (n + 1) % 49 = 0
    · rw [sums_first m c ⟨n + 1, h⟩ h0 p q]
      show 0 + dsum m c ((n + 1) / 49) ((n + 1) % 49) p.val q.val = _
      rw [h0]; rfl
    · rw [sums_later m c ⟨n + 1, h⟩ h0 p q]
      show (outsAt0 m c n _).1 (ix2 p q) + dsum m c ((n + 1) / 49) ((n + 1) % 49) p.val q.val = _
      rw [sums_at c n _ p q]
      have hd : n / 49 = (n + 1) / 49 := by omega
      obtain ⟨k, hk⟩ : ∃ k, (n + 1) % 49 = k + 1 := ⟨(n + 1) % 49 - 1, by omega⟩
      have hk' : n % 49 = k := by omega
      rw [hd, hk, hk']; rfl

theorem cnts_at (c : Dev nD) : ∀ (n : ℕ) (h : n < cfg0.N) (p : Fin 1000) (z : Fin 1),
    (outsAt0 m c n h).2 (ix2 p z) = runSum (fun k => dcnt m c (n / 49) k p.val) (n % 49)
  | 0, h, p, z => by
    rw [cnts_first m c ⟨0, h⟩ rfl p z]; rfl
  | n + 1, h, p, z => by
    by_cases h0 : (n + 1) % 49 = 0
    · rw [cnts_first m c ⟨n + 1, h⟩ h0 p z]
      show 0 + dcnt m c ((n + 1) / 49) ((n + 1) % 49) p.val = _
      rw [h0]; rfl
    · rw [cnts_later m c ⟨n + 1, h⟩ h0 p z]
      show (outsAt0 m c n _).2 (ix2 p z) + dcnt m c ((n + 1) / 49) ((n + 1) % 49) p.val = _
      rw [cnts_at c n _ p z]
      have hd : n / 49 = (n + 1) / 49 := by omega
      obtain ⟨k, hk⟩ : ∃ k, (n + 1) % 49 = k + 1 := ⟨(n + 1) % 49 - 1, by omega⟩
      have hk' : n % 49 = k := by omega
      rw [hd, hk, hk']; rfl

/-! ## The two result arrays of the region -/

/-- Team `r`'s sums: the 49 blocks' contributions to row r % 1000 of grid row r / 1000. -/
def SK (c : Dev nD) : S2000x36.Idx → EReal := fun j =>
  ∑ k ∈ Finset.range 49, dsum m c ((j 0).val / 1000) k ((j 0).val % 1000) (j 1).val
/-- Team `r`'s count, likewise. -/
def CK (c : Dev nD) : S2000x1.Idx → EReal := fun j =>
  ∑ k ∈ Finset.range 49, dcnt m c ((j 0).val / 1000) k ((j 0).val % 1000)

/-- What a write-back point writes of the sums is its block of `SK`: the point is the last of its row of the grid, so
    the running sum has taken in all 49 blocks. -/
theorem flushed2_eq (c : Dev nD) (t : Fin cfg0.N) (hf : (cfg0.win 2).flush t = true) :
    (dats m 0 c).flushed 2 t = ((cfg0.win 2).blk t).view.read (Elt Ideal) (SK m c) := by
  have h98 : t.val < 98 := lt_of_lt_of_eq t.isLt N_0
  have h48 : t.val % 49 = 48 := (flush0_2 t).mp hf
  obtain ⟨-, -, -, -, e4, e5, -, -⟩ := idx_facts t
  show (cfg0.win 2).cut (grid0.coords t) ((dats m 0 c).after 2 t) = _
  rw [after0_2]
  funext j
  have hj0 : (j 0).val < 1000 := (j 0).isLt
  have hj1 : (j 1).val < 36 := (j 1).isLt
  have hj : (j : S1000x36.Idx) = ix2 (⟨(j 0).val, hj0⟩ : Fin 1000) (⟨(j 1).val, hj1⟩ : Fin 36) := by
    funext a
    match a with
    | ⟨0, _⟩ => rfl
    | ⟨1, _⟩ => rfl
  have key := sums_at m c t.val t.isLt ⟨(j 0).val, hj0⟩ ⟨(j 1).val, hj1⟩
  rw [View.read_apply]
  refine (show (outsAt0 m c t.val t.isLt).1 j = (outsAt0 m c t.val t.isLt).1 (ix2 (⟨(j 0).val, hj0⟩ : Fin 1000) (⟨(j 1).val, hj1⟩ : Fin 36)) from congrArg _ hj).trans (key.trans ?_)
  rw [h48, runSum_eq]
  unfold SK
  have hE0 : ((((cfg0.win 2).blk t).view.emb j) 0).val = 1000 * (t.val / 49) + (j 0).val := by
    show win0_2.index t (0 : Fin 2) * 1000 + 1 * (j 0).val = _; rw [e4]; omega
  have hE1 : ((((cfg0.win 2).blk t).view.emb j) 1).val = (j 1).val := by
    show win0_2.index t (1 : Fin 2) * 36 + 1 * (j 1).val = _; rw [e5]; omega
  have hd : (1000 * (t.val / 49) + (j 0).val) / 1000 = t.val / 49 := by omega
  have hm : (1000 * (t.val / 49) + (j 0).val) % 1000 = (j 0).val := by omega
  show _ = ∑ k ∈ Finset.range 49, dsum m c (((((cfg0.win 2).blk t).view.emb j) 0).val / 1000) k (((((cfg0.win 2).blk t).view.emb j) 0).val % 1000) ((((cfg0.win 2).blk t).view.emb j) 1).val
  rw [hE0, hE1, hd, hm]

/-- The same for the counts. -/
theorem flushed3_eq (c : Dev nD) (t : Fin cfg0.N) (hf : (cfg0.win 3).flush t = true) :
    (dats m 0 c).flushed 3 t = ((cfg0.win 3).blk t).view.read (Elt Ideal) (CK m c) := by
  have h98 : t.val < 98 := lt_of_lt_of_eq t.isLt N_0
  have h48 : t.val % 49 = 48 := (flush0_3 t).mp hf
  obtain ⟨-, -, -, -, -, -, e6, e7⟩ := idx_facts t
  show (cfg0.win 3).cut (grid0.coords t) ((dats m 0 c).after 3 t) = _
  rw [after0_3]
  funext j
  have hj0 : (j 0).val < 1000 := (j 0).isLt
  have hj1 : (j 1).val < 1 := (j 1).isLt
  have hj : (j : S1000x1.Idx) = ix2 (⟨(j 0).val, hj0⟩ : Fin 1000) (⟨(j 1).val, hj1⟩ : Fin 1) := by
    funext a
    match a with
    | ⟨0, _⟩ => rfl
    | ⟨1, _⟩ => rfl
  have key := cnts_at m c t.val t.isLt ⟨(j 0).val, hj0⟩ ⟨(j 1).val, hj1⟩
  rw [View.read_apply]
  refine (show (outsAt0 m c t.val t.isLt).2 j = (outsAt0 m c t.val t.isLt).2 (ix2 (⟨(j 0).val, hj0⟩ : Fin 1000) (⟨(j 1).val, hj1⟩ : Fin 1)) from congrArg _ hj).trans (key.trans ?_)
  rw [h48, runSum_eq]
  unfold CK
  have hE0 : ((((cfg0.win 3).blk t).view.emb j) 0).val = 1000 * (t.val / 49) + (j 0).val := by
    show win0_3.index t (0 : Fin 2) * 1000 + 1 * (j 0).val = _; rw [e6]; omega
  have hd : (1000 * (t.val / 49) + (j 0).val) / 1000 = t.val / 49 := by omega
  have hm : (1000 * (t.val / 49) + (j 0).val) % 1000 = (j 0).val := by omega
  show _ = ∑ k ∈ Finset.range 49, dcnt m c (((((cfg0.win 3).blk t).view.emb j) 0).val / 1000) k (((((cfg0.win 3).blk t).view.emb j) 0).val % 1000)
  rw [hE0, hd, hm]

/-- An index of the sums' array is in point `t`'s block iff each coordinate is in the block's range on its axis. -/
theorem mem_blk2 (t : Fin cfg0.N) (i : S2000x36.Idx) :
    i ∈ ((cfg0.win 2).blk t).view.set ↔ ∀ a : Fin 2, win0_2.index t a * S1000x36.size a ≤ (i a).val ∧ (i a).val < win0_2.index t a * S1000x36.size a + S1000x36.size a := by
  show i ∈ ((View.whole main_v57_0).slice (win0_2.rect t)).set ↔ _
  rw [View.set_slice_whole, Rect.mem_set_unit]
  exact Iff.rfl
theorem mem_blk3 (t : Fin cfg0.N) (i : S2000x1.Idx) :
    i ∈ ((cfg0.win 3).blk t).view.set ↔ ∀ a : Fin 2, win0_3.index t a * S1000x1.size a ≤ (i a).val ∧ (i a).val < win0_3.index t a * S1000x1.size a + S1000x1.size a := by
  show i ∈ ((View.whole main_v57_1).slice (win0_3.rect t)).set ↔ _
  rw [View.set_slice_whole, Rect.mem_set_unit]
  exact Iff.rfl

/-- The last point of grid row `a`. -/
def lastOf (a : ℕ) (ha : a < 2) : Fin cfg0.N := ⟨49 * a + 48, by rw [show cfg0.N = 98 from N_0]; omega⟩

/-- Every team's row of sums is written back by the last point of its row of the grid. -/
theorem final2 (c : Dev nD) : (dats m 0 c).arrAt 2 cfg0.N = SK m c :=
  (dats m 0 c).arrAt_eq_of_cover 2 (SK m c) (flushed2_eq m c) fun i => by
    have hi0 : (i 0).val < 2000 := (i 0).isLt
    have hi1 : (i 1).val < 36 := (i 1).isLt
    have ha : (i 0).val / 1000 < 2 := by omega
    refine ⟨lastOf ((i 0).val / 1000) ha, (flush0_2 _).mpr (by show (49 * ((i 0).val / 1000) + 48) % 49 = 48; omega), ?_⟩
    obtain ⟨-, -, -, -, e4, e5, -, -⟩ := idx_facts (lastOf ((i 0).val / 1000) ha)
    have hv : (lastOf ((i 0).val / 1000) ha).val = 49 * ((i 0).val / 1000) + 48 := rfl
    rw [mem_blk2]
    intro a
    match a with
    | ⟨0, _⟩ => show win0_2.index _ (0 : Fin 2) * 1000 ≤ (i 0).val ∧ (i 0).val < win0_2.index _ (0 : Fin 2) * 1000 + 1000; rw [e4, hv]; omega
    | ⟨1, _⟩ => show win0_2.index _ (1 : Fin 2) * 36 ≤ (i 1).val ∧ (i 1).val < win0_2.index _ (1 : Fin 2) * 36 + 36; rw [e5]; omega

/-- And every team's count. -/
theorem final3 (c : Dev nD) : (dats m 0 c).arrAt 3 cfg0.N = CK m c :=
  (dats m 0 c).arrAt_eq_of_cover 3 (CK m c) (flushed3_eq m c) fun i => by
    have hi0 : (i 0).val < 2000 := (i 0).isLt
    have hi1 : (i 1).val < 1 := (i 1).isLt
    have ha : (i 0).val / 1000 < 2 := by omega
    refine ⟨lastOf ((i 0).val / 1000) ha, (flush0_3 _).mpr (by show (49 * ((i 0).val / 1000) + 48) % 49 = 48; omega), ?_⟩
    obtain ⟨-, -, -, -, -, -, e6, e7⟩ := idx_facts (lastOf ((i 0).val / 1000) ha)
    have hv : (lastOf ((i 0).val / 1000) ha).val = 49 * ((i 0).val / 1000) + 48 := rfl
    rw [mem_blk3]
    intro a
    match a with
    | ⟨0, _⟩ => show win0_3.index _ (0 : Fin 2) * 1000 ≤ (i 0).val ∧ (i 0).val < win0_3.index _ (0 : Fin 2) * 1000 + 1000; rw [e6, hv]; omega
    | ⟨1, _⟩ => show win0_3.index _ (1 : Fin 2) * 1 ≤ (i 1).val ∧ (i 1).val < win0_3.index _ (1 : Fin 2) * 1 + 1; rw [e7]; omega

end Cert.KernelIdeal.Sums

end
-- ==== Proof.IdealResult.lean ====
/-
  The kernel's program read as a value: its result array is the masked mean joined to the first argument.

  The region finds the membership matrix and the joined embeddings padded with zeros from 50000 to 50176 users. A
  padded position contributes the membership number of the zero word, which is zero, so summing the 49 blocks of 1024
  padded positions is summing the 50000 real users: the region's two arrays are every team's embedding sums and member
  count. The three host lines after the region divide the one by the other and join the quotient to the first
  argument, which no line of the program writes.
-/
import proofs.«153469_j6107443495191_1_alg».proof.Proof.IdealSums
import Idealize.ShloMosaic.Lib.KernelVsHost

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Region Cert.KernelIdeal.Sums Cert.MaskedMean
open Idealize.ShloMosaic.ValueIdx

variable (m : (ℓ : Loc nD τ sig) → Buf (Elt Ideal) ℓ) (ρ : Dev nD → PrngReg)

/-! ## What the region finds in its two input arrays -/

/-- The buffers after the 68 host lines that gather the six tables' rows and join the pieces. -/
abbrev W0 (c : Dev nD) : Valuation τ sig (Elt Ideal) := StableHlo.after hostOps0 (fun b => m (c, b))

/-- The joined embeddings, 50000 x 36. -/
abbrev U54 (c : Dev nD) : FVec Ideal S50000x36 .f32 := W0 m c (Proc.devRef .tc main_v54)

/-- The region-entry contents are the five padding lines run after those 68. -/
theorem V0_split (c : Dev nD) : V0 m c = StableHlo.after (hostOps0_1 ++ (hostOps0_2 ++ hostOps0_3)) (W0 m c) := by
  show StableHlo.after (hostOps0 ++ (hostOps0_1 ++ (hostOps0_2 ++ (hostOps0_3 ++ [])))) _ = _
  rw [List.append_nil, StableHlo.after_append]

/-- None of the 68 lines writes the membership matrix. -/
theorem W0_arg2 (c : Dev nD) : W0 m c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The last of them leaves the integer zero the membership matrix is padded with. -/
theorem W0_c11 (c : Dev nD) : W0 m c (Proc.devRef .tc main_c_11) = constantI S_ 32 0#32 := by
  show StableHlo.after hostOps0 _ (Proc.devRef .tc main_c_11) = _
  after_results

set_option maxHeartbeats 1000000 in
/-- The region finds the membership matrix padded with zeros from 50000 to 50176 columns. -/
theorem TP_eq (c : Dev nD) : (V m c main_v55 : IVec S2000x50176 32)
    = pad S2000x50176 ![0, 0] ![0, 176] ![0, 0] (m ((c : Thread nD τ).loc main_arg2)) (constantI S_ 32 0#32)
        pads_S2000x50000_S2000x50176_000_01760 h_S_ := by
  show V0 m c (Proc.devRef .tc main_v55) = _
  rw [V0_split]
  have hA := W0_arg2 m c
  have hC := W0_c11 m c
  generalize W0 m c = W at hA hC ⊢
  simp only [hostOps0_1, hostOps0_2, hostOps0_3, List.cons_append, List.nil_append]
  after_results
  rw [hA, hC]
  rfl

set_option maxHeartbeats 1000000 in
/-- And the joined embeddings padded with zeros from 50000 to 50176 rows. -/
theorem UP_eq (c : Dev nD) : (V m c main_v56 : FVec Ideal S50176x36 .f32)
    = pad S50176x36 ![0, 0] ![176, 0] ![0, 0] (U54 m c) (constant (F := Ideal) S_ .f32 0x00000000#32)
        pads_S50000x36_S50176x36_01760_000 h_S_ := by
  show V0 m c (Proc.devRef .tc main_v56) = _
  rw [V0_split]
  show StableHlo.after (hostOps0_1 ++ (hostOps0_2 ++ hostOps0_3)) (W0 m c) (Proc.devRef .tc main_v56)
    = pad S50176x36 ![0, 0] ![176, 0] ![0, 0] (W0 m c (Proc.devRef .tc main_v54)) (constant (F := Ideal) S_ .f32 0x00000000#32)
        pads_S50000x36_S50176x36_01760_000 h_S_
  generalize W0 m c = W
  simp only [hostOps0_1, hostOps0_2, hostOps0_3, List.cons_append, List.nil_append]
  after_results
  rfl

/-! ## The padded reads -/

/-- Inside the matrix the padded read is the membership word. -/
theorem tp_inside (c : Dev nD) (r : Fin 2000) (j : Fin 50000) :
    tp m c r.val j.val = (m ((c : Thread nD τ).loc main_arg2) : IVec S2000x50000 32) (ix2 r j) := by
  have hb : r.val < 2000 ∧ j.val < 50176 := ⟨r.isLt, by have := j.isLt; omega⟩
  unfold tp; rw [dif_pos hb]
  show (V m c main_v55 : IVec S2000x50176 32) _ = _
  rw [TP_eq]
  refine pad_apply_of_inside _ _ _ _ _ _ _ _ (ix2 r j) ?_
  intro a
  match a with
  | ⟨0, _⟩ => show r.val = 0 + r.val * (0 + 1); omega
  | ⟨1, _⟩ => show j.val = 0 + j.val * (0 + 1); omega

/-- Past position 50000 the padded read is the zero word. -/
theorem tp_outside (c : Dev nD) (r n : ℕ) (hn : 50000 ≤ n) : tp m c r n = 0#32 := by
  unfold tp
  split
  · rename_i hb
    show (V m c main_v55 : IVec S2000x50176 32) _ = _
    rw [TP_eq]
    refine (pad_apply_of_not_inside _ _ _ _ _ _ _ _ (1 : Fin 2) ?_).trans rfl
    intro h
    have h3 : (n - 0) / (0 + 1) < 50000 := h.2.2
    omega
  · rfl

/-- Inside the embeddings the padded read is the joined embedding entry. -/
theorem up_inside (c : Dev nD) (j : Fin 50000) (q : Fin 36) : up m c j.val q.val = U54 m c (ix2 j q) := by
  have hb : j.val < 50176 ∧ q.val < 36 := ⟨by have := j.isLt; omega, q.isLt⟩
  unfold up; rw [dif_pos hb]
  show (V m c main_v56 : FVec Ideal S50176x36 .f32) _ = _
  rw [UP_eq]
  refine pad_apply_of_inside _ _ _ _ _ _ _ _ (ix2 j q) ?_
  intro a
  match a with
  | ⟨0, _⟩ => show j.val = 0 + j.val * (0 + 1); omega
  | ⟨1, _⟩ => show q.val = 0 + q.val * (0 + 1); omega

/-! ## The region's two arrays are the masked mean's two sums -/

theorem SK_eq (c : Dev nD) : SK m c = fun j => msum (m ((c : Thread nD τ).loc main_arg2)) (U54 m c) (j 0) (j 1) := by
  funext j
  obtain ⟨r, q, rfl⟩ : ∃ (r : Fin 2000) (q : Fin 36), j = ix2 r q := ⟨j 0, j 1, eq_ix2 j⟩
  have hr : 1000 * (r.val / 1000) + r.val % 1000 = r.val := Nat.div_add_mod _ _
  show ∑ k ∈ Finset.range 49, dsum m c (r.val / 1000) k (r.val % 1000) q.val = msum _ _ r q
  unfold dsum msum
  simp only [hr]
  rw [sum_49_blocks (fun n => ind (tp m c r.val n) * up m c n q.val) (fun n hn => by rw [tp_outside m c r.val n hn, ind_zero, zero_mul])]
  refine Finset.sum_congr rfl fun j _ => ?_
  rw [tp_inside, up_inside]

theorem CK_eq (c : Dev nD) : CK m c = fun j => mcount (m ((c : Thread nD τ).loc main_arg2)) (j 0) := by
  funext j
  obtain ⟨r, z, rfl⟩ : ∃ (r : Fin 2000) (z : Fin 1), j = ix2 r z := ⟨j 0, j 1, eq_ix2 j⟩
  have hr : 1000 * (r.val / 1000) + r.val % 1000 = r.val := Nat.div_add_mod _ _
  show ∑ k ∈ Finset.range 49, dcnt m c (r.val / 1000) k (r.val % 1000) = mcount _ r
  unfold dcnt mcount
  simp only [hr]
  rw [sum_49_blocks (fun n => ind (tp m c r.val n)) (fun n hn => by rw [tp_outside m c r.val n hn, ind_zero])]
  refine Finset.sum_congr rfl fun j _ => ?_
  rw [tp_inside]

/-! ## The host lines after the region, and the run -/

/-- The program's result: the three lines after the region applied to the region's two arrays and the first argument. -/
def result (c : Dev nD) : Buf (Elt Ideal) ((c : Thread nD τ).loc main_v60) :=
  joined (m ((c : Thread nD τ).loc main_arg0)) (fun j => msum (m ((c : Thread nD τ).loc main_arg2)) (U54 m c) (j 0) (j 1))
    (fun j => mcount (m ((c : Thread nD τ).loc main_arg2)) (j 0)) bcast_S2000x1_S2000x36_0_1 concatenates_S2000x16_S2000x36_S2000x52_d1

set_option maxHeartbeats 1000000 in
/-- After the three host lines the result array holds `result`: they read the region's two arrays, which are the masked
    sum and the count, and the first argument, which nothing has written. -/
theorem result_eq (c : Dev nD) :
    Pipeline.afterTail₀ cfgs (dats m) 0 (V0 m) [hostOps1] c main_v60 = result m c := by
  unfold Pipeline.afterTail₀
  show StableHlo.after hostOps1 _ (Proc.devRef .tc main_v60) = _
  after_results
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have e2 : (Pipeline.withArrays (cfgs 0).spec c (V0 m c) (fun w => (dats m 0 c).arrAt w (cfgs 0).N) (Proc.devRef .tc main_v57_0) : FVec Ideal S2000x36 .f32)
      = fun j => msum (m ((c : Thread nD τ).loc main_arg2)) (U54 m c) (j 0) (j 1) :=
    (Pipeline.withArrays_arr spec0 launch0.win.arr_inj c _ _ 2).trans ((final2 m c).trans (SK_eq m c))
  have e3 : (Pipeline.withArrays (cfgs 0).spec c (V0 m c) (fun w => (dats m 0 c).arrAt w (cfgs 0).N) (Proc.devRef .tc main_v57_1) : FVec Ideal S2000x1 .f32)
      = fun j => mcount (m ((c : Thread nD τ).loc main_arg2)) (j 0) :=
    (Pipeline.withArrays_arr spec0 launch0.win.arr_inj c _ _ 3).trans ((final3 m c).trans (CK_eq m c))
  rw [e0, e2, e3]
  rfl

/-- THE KERNEL'S RUN, READ: every weakly fair execution ends with the result array at `result` and the nine arguments as
    launched. -/
theorem run : θ_run defs (onTc (τ := τ) (main (F := Ideal))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v60 (Pipeline.mem_restRefs_of main_v60 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Result

end
-- ==== Proof.RefTail.lean ====
/-
  The reference's last lines, read over the extended reals.

  The reference compares the membership matrix with 1 and converts the one-bit result to a number, once; multiplies
  that 2000 x 50000 matrix of zeros and ones into the 50000 x 36 embeddings; sums each of its rows; lays the 2000 sums
  out as a column; and ends with the same three lines as the kernel. At row r and column q the product is the sum over
  all users of membership number times embedding entry, and the row sum is zero plus the sum of the membership
  numbers: the masked mean's two sums, whatever the embeddings are.
-/
import proofs.«153469_j6107443495191_1_alg».proof.Proof.Gen.ReferenceIdeal
import proofs.«153469_j6107443495191_1_alg».proof.Proof.MaskedMean
import proofs.«153469_j6107443495191_1_alg».proof.Proof.LibMatmul
import Idealize.ShloMosaic.Lib.Pipeline.Value

noncomputable section

namespace Cert.ReferenceIdeal.Tail

open Cert.ReferenceIdeal Cert.ReferenceIdeal.Gen Cert.MaskedMean Idealize.ShloMosaic Idealize.ShloMosaic.ValueIdx

/-- The printed dimension numbers are those of a plain 2000 x 50000 by 50000 x 36 product. -/
theorem dims_plain : dot_S2000x50000_S50000x36_S2000x36_1_0_0_1_n_n = DotDims.plain 2000 50000 36 := rfl

/-- The reference's membership numbers. -/
abbrev maskR (T : IVec S2000x50000 32) : FVec Ideal S2000x50000 .f32 :=
  uitofp .f32 (cmpi .eq T (broadcastInDim S2000x50000 ![] bcast_S_S2000x50000 (constantI S_ 32 1#32)))

theorem maskR_apply (T : IVec S2000x50000 32) (r : Fin 2000) (j : Fin 50000) : maskR T (ix2 r j) = ind (T (ix2 r j)) :=
  ind_of_uitofp (T (ix2 r j))

/-- The product of the membership numbers with any embeddings is the masked sum. -/
theorem prod_eq (T : IVec S2000x50000 32) (U : FVec Ideal S50000x36 .f32) :
    Host.dotGeneral dot_S2000x50000_S50000x36_S2000x36_1_0_0_1_n_n none (maskR T) U = fun j => msum T U (j 0) (j 1) := by
  funext j
  obtain ⟨r, q, rfl⟩ : ∃ (r : Fin 2000) (q : Fin 36), j = ix2 r q := ⟨j 0, j 1, eq_ix2 j⟩
  refine (Cert.Matmul.dotGeneral_plain_apply (M := 2000) (K := 50000) (N := 36) none _ (maskR T) U r q).trans ?_
  unfold msum
  refine Finset.sum_congr rfl fun k _ => ?_
  rw [maskR_apply]

/-- The row sums of the membership numbers, laid out as a column, are the counts. -/
theorem count_eq (T : IVec S2000x50000 32) :
    broadcastInDim S2000x1 ![0] bcast_S2000_S2000x1_0
        (Host.reduceAdd (maskR T) (constant S_ .f32 0x00000000#32) reducesTo_S2000x50000_S2000_d1 h_S_)
      = fun j => mcount T (j 0) := by
  funext j
  obtain ⟨r, z, rfl⟩ : ∃ (r : Fin 2000) (z : Fin 1), j = ix2 r z := ⟨j 0, j 1, eq_ix2 j⟩
  refine (column_of_vec (a := 2000) _ bcast_S2000_S2000x1_0 r z).trans ?_
  show Ideal.hostReduceAdd reducesTo_S2000x50000_S2000_d1 (maskR T) (Ideal.ofBits .f32 0x00000000#32) (ix1 r) = _
  refine (hostRowsum_apply (M := 2000) (N := 50000) (maskR T) _ reducesTo_S2000x50000_S2000_d1 (by decide) r).trans ?_
  rw [Ideal.ofBits_zero_f32, zero_add]
  unfold mcount
  refine Finset.sum_congr rfl fun k _ => ?_
  rw [maskR_apply]

/-- THE REFERENCE'S RESULT TERM, for any first argument, membership matrix and embeddings: the common tail of the masked
    sum and the count. -/
theorem tail_eq (a0 : FVec Ideal S2000x16 .f32) (T : IVec S2000x50000 32) (U : FVec Ideal S50000x36 .f32) :
    concatenate S2000x52 1 [⟨S2000x16, a0⟩, ⟨S2000x36,
        (Host.divf (Host.dotGeneral dot_S2000x50000_S50000x36_S2000x36_1_0_0_1_n_n none (maskR T) U)
          (broadcastInDim S2000x36 ![0, 1] bcast_S2000x1_S2000x36_0_1 (broadcastInDim S2000x1 ![0] bcast_S2000_S2000x1_0
            (Host.reduceAdd (maskR T) (constant S_ .f32 0x00000000#32) reducesTo_S2000x50000_S2000_d1 h_S_))))⟩]
        concatenates_S2000x16_S2000x36_S2000x52_d1
      = joined a0 (fun j => msum T U (j 0) (j 1)) (fun j => mcount T (j 0)) bcast_S2000x1_S2000x36_0_1
          concatenates_S2000x16_S2000x36_S2000x52_d1 := by
  rw [prod_eq, count_eq]
  rfl

end Cert.ReferenceIdeal.Tail

end
-- ==== Proof.lean ====
/-
  The masked mean of user embeddings per team: a Pallas kernel against its jnp reference.

  Both programs gather six embedding tables by the users' categorical indices and join the pieces into a
  50000 x 36 array U, by the same host lines. The reference then takes the 2000 x 50000 membership matrix T, forms the
  numbers ind(T) — one where the word is 1, zero elsewhere —, multiplies ind(T) into U, sums each row of ind(T), divides
  the products by the row sums laid along the 36 columns, and joins the quotient to the first argument. The kernel pads
  T and U with zeros along the user axis to 50176 = 49 * 1024 positions and sweeps them on a 2 x 49 grid: point (i, k)
  adds to two accumulators, zeroed at k = 0 and written back at k = 48, the product of rows 1000 i .. 1000 i + 999 of
  ind(T) with rows 1024 k .. 1024 k + 1023 of U, and those rows' sums over that block; the same division and join follow.

  Over the extended reals a change of float format is the identity, the matrix unit's product into zero and the
  host's product are both the plain sum over the contracted axis, and a lane reduction and the host's row reduction
  are both the plain sum of the row. Addition there is commutative and associative with zero neutral, so the 49
  running additions from zero are the sum of the 49 block sums, which is the sum over all 50176 positions; the padded
  positions hold the zero word, whose number is zero, so that is the sum over the 50000 users. Hence the kernel's
  two arrays are the reference's product and row sums, entry by entry, for every input — no finiteness is used —, and
  the shared division and join give equal results. The ideal pass rewrote nothing, so `preserves` is trivial. The
  three frames: each kernel program by the pipeline's launch theorem over a run of the body per case of its one branch
  (the module chain Region, Runs, Frame, once at each float instance), the reference by its generated run.
-/
import proofs.«153469_j6107443495191_1_alg».proof.Defs
import proofs.«153469_j6107443495191_1_alg».proof.Proof.WordFrame
import proofs.«153469_j6107443495191_1_alg».proof.Proof.IdealResult
import proofs.«153469_j6107443495191_1_alg».proof.Proof.RefTail
import proofs.«153469_j6107443495191_1_alg».proof.Proof.Gen.ReferenceIdeal.Run
import proofs.«153469_j6107443495191_1_alg».proof.Proof.Gen.Pre_finite_inputs

noncomputable section

namespace Cert.Proof

open Idealize.ShloMosaic Idealize.ShloMosaic.TcCoe Idealize.SL.Sem

/-- The word-level kernel runs to the end, faults nowhere and leaves its nine arguments as launched. -/
theorem frame_k : Cert.frame_Kernel := fun m ρ _ => Cert.Kernel.Region.frame (F := Bits) m ρ
/-- So does its reading over the extended reals. -/
theorem frame_ki : Cert.frame_KernelIdeal := fun m ρ _ => Cert.KernelIdeal.Region.frame (F := Ideal) m ρ
/-- The reference is host lines only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option maxHeartbeats 4000000 in
/-- From memories agreeing on the nine arguments both programs end with the masked mean joined to the first argument:
    the kernel by its run read as a value, the reference by its run, its last lines read as the same two sums, and the
    two programs' gathered embeddings being one text of the same arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  unfold Cert.ReferenceIdeal.Value.res_main_v63
  refine (Cert.ReferenceIdeal.Tail.tail_eq _ _ _).trans ?_
  rw [h0, h1, h2, h3, h4, h5, h6, h7, h8]
  unfold Cert.KernelIdeal.Result.result
  refine congrArg (fun U => Cert.MaskedMean.joined _ (fun j => Cert.MaskedMean.msum _ U (j 0) (j 1)) _ _ _) ?_
  symm
  show StableHlo.after Cert.KernelIdeal.Gen.hostOps0 _ (Proc.devRef .tc Cert.KernelIdeal.main_v54) = _
  after_results
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
